-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x128 : Shape := ⟨2, ![256, 128]⟩
abbrev S128 : Shape := ⟨1, ![128]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4096x256 .f32) (main_arg1 : FVec F S4096x4096 .f32) (main_arg2 : FVec F S256x128 .f32) (main_arg3 : FVec F S128 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4096x256 : Shape := ⟨2, ![4096, 256]⟩
abbrev S4096x4096 : Shape := ⟨2, ![4096, 4096]⟩
abbrev S256x128 : Shape := ⟨2, ![256, 128]⟩
abbrev S128 : Shape := ⟨1, ![128]⟩
abbrev S1x128 : Shape := ⟨2, ![1, 128]⟩
abbrev S4096x128 : Shape := ⟨2, ![4096, 128]⟩
abbrev S512x1024 : Shape := ⟨2, ![512, 1024]⟩
abbrev S512x128 : Shape := ⟨2, ![512, 128]⟩
abbrev S1024x256 : Shape := ⟨2, ![1024, 256]⟩
abbrev S1024x128 : Shape := ⟨2, ![1024, 128]⟩

abbrev nBuf : Space → Nat
  | .hbm => 6
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x128, .f32⟩
  | .hbm, ⟨3, _⟩ => ⟨S128, .f32⟩
  | .hbm, ⟨4, _⟩ => ⟨S1x128, .f32⟩
  | .hbm, ⟨5, _⟩ => ⟨S4096x128, .f32⟩
  | .local _ .vmem, ⟨0, _⟩ => ⟨S4096x256, .f32⟩
  | .local _ .vmem, ⟨1, _⟩ => ⟨S256x128, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S4096x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v16 : Index := Scalar.indexCast v1
  let c0_9 : Index := 0#32
  ![v16.toNat, 0]
def k0_off2 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v20 : Index := Scalar.indexCast v1
  let c0_13 : Index := 0#32
  ![v20.toNat, 0]
def k0_off3 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v11 : Index := Scalar.indexCast v1
  let c0_6 : Index := 0#32
  ![v11.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S128_S1x128 : S128.ShapeCasts S1x128
  h_S1024x256 : 0 < S1024x256.numel
  inb_S256x128_S256x128_0_0 : ∀ a, (![0, 0] : Fin 2 → Nat) a + S256x128.size a ≤ S256x128.size a
  h_S256x128 : 0 < S256x128.numel
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1024_S512x1024_0_0 : ∀ a, (![0, 0] : Fin 2 → Nat) a + S512x1024.size a ≤ S512x1024.size a
  h_S512x1024 : 0 < S512x1024.numel
  dot_S1024x256_S256x128_S1024x128_1_0_0_1_n_n_wf : DotDims.WF S1024x256 S256x128 S1024x128 [1] [0] [0] [1] [] []
  dot_S512x1024_S1024x128_S512x128_1_0_0_1_n_n_wf : DotDims.WF S512x1024 S1024x128 S512x128 [1] [0] [0] [1] [] []
  hrank0 : 0 < grid0.rank
  k0_mult1_dvd : ∀ i : grid0.Coords, 1024 ∣ (k0_mult1 i).toNat
  k0_off1_inb : ∀ i : grid0.Coords, ∀ (k0_h1 : k0_cond1 i = 1#1), ∀ a, (k0_off1 i) a + S1024x256.size a ≤ S4096x256.size a
  k0_off2_inb : ∀ i : grid0.Coords, ∀ (k0_h1 : k0_cond1 i = 1#1), ∀ a, (k0_off2 i) a + S1024x128.size a ≤ S4096x128.size a
  k0_off3_inb : ∀ i : grid0.Coords, ∀ a, (k0_off3 i) a + S1024x128.size a ≤ S4096x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S4096x256.size a
  hwx0_0 : ∀ i : grid0.Coords, EltTy.bits .f32 = 32 ∨ (Rect.block (s := S4096x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S4096x128.size a
  hwx0_4 : ∀ i : grid0.Coords, EltTy.bits .f32 = 32 ∨ (Rect.block (s := S4096x128) S512x128.size (cc0_transform_4 i) (hinb0_4 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_arg0) S4096x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x128 : Shape := ⟨2, ![256, 128]⟩
abbrev S128 : Shape := ⟨1, ![128]⟩
abbrev S1x128 : Shape := ⟨2, ![1, 128]⟩
abbrev S4096x128 : Shape := ⟨2, ![4096, 128]⟩
abbrev S512x256 : Shape := ⟨2, ![512, 256]⟩
abbrev S512x128 : Shape := ⟨2, ![512, 128]⟩
abbrev S512x512 : Shape := ⟨2, ![512, 512]⟩

abbrev nBuf : Space → Nat
  | .hbm => 8
  | .vmem => 12
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x128, .f32⟩
  | .hbm, ⟨3, _⟩ => ⟨S128, .f32⟩
  | .hbm, ⟨4, _⟩ => ⟨S1x128, .f32⟩
  | .hbm, ⟨5, _⟩ => ⟨S4096x4096, .bf16⟩
  | .hbm, ⟨6, _⟩ => ⟨S4096x128, .bf16⟩
  | .hbm, ⟨7, _⟩ => ⟨S4096x128, .f32⟩
  | .local _ .vmem, ⟨0, _⟩ => ⟨S512x256, .f32⟩
  | .local _ .vmem, ⟨1, _⟩ => ⟨S512x256, .f32⟩
  | .local _ .vmem, ⟨2, _⟩ => ⟨S256x128, .f32⟩
  | .local _ .vmem, ⟨3, _⟩ => ⟨S512x128, .bf16⟩
  | .local _ .vmem, ⟨4, _⟩ => ⟨S512x128, .bf16⟩
  | .local _ .vmem, ⟨5, _⟩ => ⟨S512x128, .f32⟩
  | .local _ .vmem, ⟨6, _⟩ => ⟨S512x512, .bf16⟩
  | .local _ .vmem, ⟨7, _⟩ => ⟨S512x512, .bf16⟩
  | .local _ .vmem, ⟨8, _⟩ => ⟨S4096x128, .bf16⟩
  | .local _ .vmem, ⟨9, _⟩ => ⟨S1x128, .f32⟩
  | .local _ .vmem, ⟨10, _⟩ => ⟨S512x128, .f32⟩
  | .local _ .vmem, ⟨11, _⟩ => ⟨S512x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_8 : BitVec 32 := 0#32
  let v11 : BitVec 1 := Scalar.cmpi .eq arg1 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_mult1 (i : grid1.Coords) : BitVec 32 :=
  let arg1 : BitVec 32 := BitVec.ofNat 32 (i 1).val
  let c512_i32 : BitVec 32 := 512#32
  let v3 : BitVec 32 := Scalar.muli arg1 c512_i32
  v3
def k1_off1 (i : grid1.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v9 : Index := Scalar.indexCast v4
  let c0_4 : Index := 0#32
  ![v9.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S4096x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S128_S1x128 : S128.ShapeCasts S1x128
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x256_S512x256_0_0 : ∀ a, (![0, 0] : Fin 2 → Nat) a + S512x256.size a ≤ S512x256.size a
  h_S512x256 : 0 < S512x256.numel
  inb_S256x128_S256x128_0_0 : ∀ a, (![0, 0] : Fin 2 → Nat) a + S256x128.size a ≤ S256x128.size a
  h_S256x128 : 0 < S256x128.numel
  packedbf16_S512x128_S512x128_0_0 : (Rect.unit (s := S512x128) ![0, 0] S512x128.size inb_S512x128_S512x128_0_0).PackedRows (EltTy.packing .bf16)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  dot_S512x256_S256x128_S512x128_1_0_0_1_n_n_wf : DotDims.WF S512x256 S256x128 S512x128 [1] [0] [0] [1] [] []
  dot_S512x512_S512x128_S512x128_1_0_0_1_n_n_wf : DotDims.WF S512x512 S512x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .bf16 = 32 ∨ (Rect.block (s := S4096x128) S512x128.size (cc0_transform_2 i) (hinb0_2 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S512x128.size a ≤ S4096x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x4096.size a
  hwx1_0 : ∀ i : grid1.Coords, EltTy.bits .bf16 = 32 ∨ (Rect.block (s := S4096x4096) S512x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S4096x128.size a
  hwx1_1 : ∀ i : grid1.Coords, EltTy.bits .bf16 = 32 ∨ (Rect.block (s := S4096x128) S4096x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S4096x128.size a
  hwx1_3 : ∀ i : grid1.Coords, EltTy.bits .f32 = 32 ∨ (Rect.block (s := S4096x128) S512x128.size (cc1_transform_3 i) (hinb1_3 i)).WholeWords (EltTy.packing .f32)

variable [Facts₀]

def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v1) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S4096x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.BBase.lean ====
/-
  The graph-convolution kernel's body, point by point: what is shared by its four control cases.

  The grid is 8 row blocks (of 512 rows) by 4 neighbour blocks (of 1024 neighbours), run row block by row block;
  point t is row block t / 4, neighbour block t % 4. At the first row block (t < 4) the body first fills rows
  [1024·(t % 4), 1024·(t % 4) + 1024) of the support scratch; at the first neighbour block (t % 4 = 0) it first
  sets the output block to the bias row; then it always adds the product of the adjacency block with the
  support rows of the neighbour block.
-/
import proofs.«145967_g2000703821448203_pallasbulk_153_9_alg».proof.Proof.Gen.Kernel.Frame
import proofs.«145967_g2000703821448203_pallasbulk_153_9_alg».proof.Proof.Gen.Kernel.Skeleton
import Idealize.ShloMosaic.Lib.Pipeline.Value
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, in closed form over the grid -/

/-- The first branch (fill the support rows): taken exactly at the first row block. -/
abbrev cond0 (i : grid0.Coords) : Prop := k0_cond1 i = 1#1
theorem hcond0 : ∀ t : Fin cfg0.N, cond0 (grid0.coords t) ↔ t.val < 4 :=
  (by decide +kernel : ∀ t : Fin grid0.N, cond0 (grid0.coords t) ↔ t.val < 4)

/-- The second branch (reset the output block to the bias): taken exactly at the first neighbour block. -/
abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 4 = 0 :=
  (by decide +kernel : ∀ t : Fin grid0.N, cond1 (grid0.coords t) ↔ t.val % 4 = 0)

/-! ## The staging memrefs the body is called with, and the scratch -/

abbrev ms0 (t : Fin cfg0.N) : Memref sig .tc .vmem S4096x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x128 .f32 := win0_4.stage (cfg0.slots t 4)
abbrev hs4 (t : Fin cfg0.N) : (ms4 t).IsWhole := hstage0_4 ((cfg0.slots t 4).cast nbuf0_4)
/-- The support scratch: a whole scoped buffer of the kernel's own. -/
abbrev scM : Memref sig .tc .vmem S4096x128 .f32 := Memref.whole cc0_scratch0
theorem hscM : (scM).IsWhole := Memref.isWhole_whole _

/-- The region's class invariant is the scratch owned at some contents beside the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The rectangles the body addresses, in closed form -/

theorem hz2 : (![0, 0] : Fin 2 → ℕ) = fun _ => 0 := by
  funext a; match a with | ⟨0, _⟩ => rfl | ⟨1, _⟩ => rfl

/-- Two unit-stride rectangles of one size at equal offsets are one rectangle. -/
theorem unit_off_congr {s : Shape} {off off' size : Fin s.rank → ℕ} (h : off = off') (inb : ∀ a, off a + size a ≤ s.size a)
    (inb' : ∀ a, off' a + size a ≤ s.size a) : Rect.unit (s := s) off size inb = Rect.unit (s := s) off' size inb' := by
  subst h; rfl

/-- The rows of x the fill reads at a point of the first row block, as the body addresses them. -/
abbrev rectX (i : grid0.Coords) (h : cond0 i) : Rect S4096x256 := Rect.unit (s := S4096x256) (k0_off1 i) S1024x256.size (k0_off1_inb i h)
/-- The support rows the fill stores, as the body addresses them. -/
abbrev rectF (i : grid0.Coords) (h : cond0 i) : Rect S4096x128 := Rect.unit (s := S4096x128) (k0_off2 i) S1024x128.size (k0_off2_inb i h)
/-- The support rows the product reads, as the body addresses them. -/
abbrev rectS (i : grid0.Coords) : Rect S4096x128 := Rect.unit (s := S4096x128) (k0_off3 i) S1024x128.size (k0_off3_inb i)

theorem inbX (k : ℕ) (hk : k < 4) : ∀ a, (![1024 * k, 0] : Fin 2 → ℕ) a + S1024x256.size a ≤ S4096x256.size a := by
  intro a; match a with
  | ⟨0, _⟩ => show 1024 * k + 1024 ≤ 4096; omega
  | ⟨1, _⟩ => show 0 + 256 ≤ 256; omega
theorem inbS (k : ℕ) (hk : k < 4) : ∀ a, (![1024 * k, 0] : Fin 2 → ℕ) a + S1024x128.size a ≤ S4096x128.size a := by
  intro a; match a with
  | ⟨0, _⟩ => show 1024 * k + 1024 ≤ 4096; omega
  | ⟨1, _⟩ => show 0 + 128 ≤ 128; omega

/-- Rows [1024·k, 1024·k + 1024) of x: the rows of neighbour block k. -/
abbrev rowsX (k : ℕ) (hk : k < 4) : Rect S4096x256 := Rect.unit (s := S4096x256) ![1024 * k, 0] S1024x256.size (inbX k hk)
/-- Rows [1024·k, 1024·k + 1024) of the support scratch. -/
abbrev rowsS (k : ℕ) (hk : k < 4) : Rect S4096x128 := Rect.unit (s := S4096x128) ![1024 * k, 0] S1024x128.size (inbS k hk)

/-- At point t the three row offsets the body computes are 1024 · (t % 4): decided over the grid. -/
theorem hoff1 : ∀ t : Fin cfg0.N, k0_off1 (grid0.coords t) = ![1024 * (t.val % 4), 0] :=
  (by decide +kernel : ∀ t : Fin grid0.N, k0_off1 (grid0.coords t) = ![1024 * (t.val % 4), 0])
theorem hoff2 : ∀ t : Fin cfg0.N, k0_off2 (grid0.coords t) = ![1024 * (t.val % 4), 0] :=
  (by decide +kernel : ∀ t : Fin grid0.N, k0_off2 (grid0.coords t) = ![1024 * (t.val % 4), 0])
theorem hoff3 : ∀ t : Fin cfg0.N, k0_off3 (grid0.coords t) = ![1024 * (t.val % 4), 0] :=
  (by decide +kernel : ∀ t : Fin grid0.N, k0_off3 (grid0.coords t) = ![1024 * (t.val % 4), 0])

theorem rectX_eq (t : Fin cfg0.N) (h : cond0 (grid0.coords t)) : rectX (grid0.coords t) h = rowsX (t.val % 4) (Nat.mod_lt _ (by decide)) :=
  unit_off_congr (hoff1 t) _ _
theorem rectS_eq (t : Fin cfg0.N) : rectS (grid0.coords t) = rowsS (t.val % 4) (Nat.mod_lt _ (by decide)) :=
  unit_off_congr (hoff3 t) _ _

/-! ## The support scratch after the fill of rows [o, o + 1024) -/

section Fill
variable (arg7 : Memref sig .tc .vmem S4096x128 .f32) (harg7 : arg7.IsWhole) (xs : Vec F S4096x128 .f32)
  (off : Fin 2 → ℕ) (inb : ∀ a, off a + S1024x128.size a ≤ S4096x128.size a)
  (w : (Rect.unit (s := S4096x128) off S1024x128.size inb).shape.Idx → Elt F .f32) (o : ℕ)

/-- What the scratch reads after the fill stored w over the contents xs. -/
def filled : Vec F S4096x128 .f32 :=
  arg7.view.read (Elt F) (arg7.view.writes (Elt F) (harg7.unread xs) [(⟨Rect.unit (s := S4096x128) off S1024x128.size inb, w⟩ : View.Piece (Elt F) S4096x128 .f32)])

/-- A row outside [o, o + 1024) keeps what it held. -/
theorem filled_out (hoff : off = ![o, 0]) (y : S4096x128.Idx) (h : (y (0 : Fin 2)).val < o ∨ o + 1024 ≤ (y (0 : Fin 2)).val) :
    filled arg7 harg7 xs off inb w y = xs y := by
  unfold filled
  rw [View.read_writes_cons_rows_of_not_mem (d := ![4096, 128]) arg7.view (harg7.unread xs) inb w [] y hoff (W := 1024) rfl h, View.writes_nil,
    harg7.read_unread]

/-- Row o + x₀, column x₁ holds the stored value at (x₀, x₁). -/
theorem filled_in (hoff : off = ![o, 0]) (y : S4096x128.Idx) (x : (Rect.unit (s := S4096x128) off S1024x128.size inb).shape.Idx)
    (hx0 : (y (0 : Fin 2)).val = o + (x (0 : Fin 2)).val) (hx1 : (y (1 : Fin 2)).val = (x (1 : Fin 2)).val) :
    filled arg7 harg7 xs off inb w y = w x := by
  unfold filled
  exact View.read_writes_cons_rows_of_mem (d := ![4096, 128]) arg7.view (harg7.unread xs) inb w [] y x hoff hx0 hx1
end Fill

end Cert.Kernel.Hand

end
-- ==== Proof.BRunA.lean ====
/-
  The kernel's body at a point of the first row block and first neighbour block (point 0): the support rows
  [0, 1024) are filled from x and w, the output block is set to the bias row and the first product is added.
  The inputs stay; the output block ends with the pieces its two stores leave (newest first) over whatever it held; the
  scratch, entered at xs, ends with the piece the fill leaves over xs.
-/
import proofs.«145967_g2000703821448203_pallasbulk_153_9_alg».proof.Proof.BBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runA (c : Dev nD) (i : grid0.Coords) (arg2 : Memref sig .tc .vmem S4096x256 .f32) (harg2 : arg2.IsWhole) (arg3 : Memref sig .tc .vmem S256x128 .f32) (harg3 : arg3.IsWhole) (arg4 : Memref sig .tc .vmem S512x1024 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4096x128 .f32) (harg7 : arg7.IsWhole) (hc0 : cond0 i) (hc1 : cond1 i)
    (x0 : Vec F S4096x256 .f32) (x1 : Vec F S256x128 .f32) (x2 : Vec F S512x1024 .f32) (x3 : Vec F S1x128 .f32) (xs : Vec F S4096x128 .f32) :
    Σ' (L4 : List (View.Piece (Elt F) S512x128 .f32)), { LS : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (arg7.view.loc (c : Thread nD τ) ↦[arg7.view.set]{fullShare} arg7.view.writes (Elt F) (harg7.unread xs) LS)) -∗ K ⟨⟩))
          ⊢ wp frame (wpE (defs₀ (F := F)) Variants.none c none) E (cc0__gcn_body i arg2 harg2 arg3 harg3 arg4 harg4 arg5 harg5 arg6 harg6 arg7 harg7) K } := by
  refine ⟨?_, ?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexact HS

/-- The output block after the point: the bias row plus the product of the adjacency block with the support rows just
    filled, whatever the block held. -/
theorem outA_eq (c : Dev nD) (i : grid0.Coords) (arg2 : Memref sig .tc .vmem S4096x256 .f32) (harg2 : arg2.IsWhole) (arg3 : Memref sig .tc .vmem S256x128 .f32) (harg3 : arg3.IsWhole) (arg4 : Memref sig .tc .vmem S512x1024 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4096x128 .f32) (harg7 : arg7.IsWhole) (hc0 : cond0 i) (hc1 : cond1 i) (x0 : Vec F S4096x256 .f32) (x1 : Vec F S256x128 .f32) (x2 : Vec F S512x1024 .f32) (x3 : Vec F S1x128 .f32) (xs : Vec F S4096x128 .f32)
    (f : arg6.view.ty.Contents (Elt F)) :
    arg6.view.read (Elt F) (arg6.view.writes (Elt F) f (runA c i arg2 harg2 arg3 harg3 arg4 harg4 arg5 harg5 arg6 harg6 arg7 harg7 hc0 hc1 x0 x1 x2 x3 xs).1)
      = k0_pay3 (k0_pay2 x3) x2 (k0_pay1 (View.ld x0 (rectX i hc0)) x1) := by
  unfold runA; dsimp only; sl_unfold_words
  rw [View.read_writes_eq_canon _ _ _ (fun y => ⟨_, List.mem_cons_self, View.mem_set_unit_zero hz2 inb_S512x128_S512x128_0_0 y⟩)]
  rw [View.canon_cons_unit_zero (S := S512x128) hz2]
  simp only [View.readAt_eq_ld, harg2.read_unread, harg3.read_unread, harg4.read_unread, harg5.read_unread, harg6.read_unread, harg7.read_unread,
    View.ld_unit_zero (S := S512x128) hz2, View.ld_unit_zero (S := S512x1024) hz2, View.ld_unit_zero (S := S1x128) hz2, View.ld_unit_zero (S := S256x128) hz2,
    View.readCov_unit_zero (S := S512x128) _ hz2]
  rw [View.readCov_cons_toLoadRect]
  rfl

/-- The one piece the fill leaves in the scratch: the product of the rows of x with w, at the rows of the neighbour block. -/
theorem scrA_eq (c : Dev nD) (i : grid0.Coords) (arg2 : Memref sig .tc .vmem S4096x256 .f32) (harg2 : arg2.IsWhole) (arg3 : Memref sig .tc .vmem S256x128 .f32) (harg3 : arg3.IsWhole) (arg4 : Memref sig .tc .vmem S512x1024 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4096x128 .f32) (harg7 : arg7.IsWhole) (hc0 : cond0 i) (hc1 : cond1 i) (x0 : Vec F S4096x256 .f32) (x1 : Vec F S256x128 .f32) (x2 : Vec F S512x1024 .f32) (x3 : Vec F S1x128 .f32) (xs : Vec F S4096x128 .f32) :
    (runA c i arg2 harg2 arg3 harg3 arg4 harg4 arg5 harg5 arg6 harg6 arg7 harg7 hc0 hc1 x0 x1 x2 x3 xs).2.1
      = [(⟨rectF i hc0, k0_pay1 (View.ld x0 (rectX i hc0)) x1⟩ : View.Piece (Elt F) S4096x128 .f32)] := by
  unfold runA; dsimp only; sl_unfold_words
  simp only [View.readAt_eq_ld, harg2.read_unread, harg3.read_unread, harg4.read_unread, harg5.read_unread, harg6.read_unread, harg7.read_unread,
    View.ld_unit_zero (S := S512x128) hz2, View.ld_unit_zero (S := S512x1024) hz2, View.ld_unit_zero (S := S1x128) hz2, View.ld_unit_zero (S := S256x128) hz2,
    View.readCov_unit_zero (S := S512x128) _ hz2]
  rfl

end Cert.Kernel.Hand

end
-- ==== Proof.BRunB.lean ====
/-
  The kernel's body at a later neighbour block of the first row block (points 1, 2, 3): the support rows of the
  neighbour block are filled from x and w, and the product is added to what the output block held (xo).
  The inputs stay; the output block ends with the piece its store leaves; the scratch, entered at xs, ends with the
  piece the fill leaves over xs.
-/
import proofs.«145967_g2000703821448203_pallasbulk_153_9_alg».proof.Proof.BRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runB (c : Dev nD) (i : grid0.Coords) (arg2 : Memref sig .tc .vmem S4096x256 .f32) (harg2 : arg2.IsWhole) (arg3 : Memref sig .tc .vmem S256x128 .f32) (harg3 : arg3.IsWhole) (arg4 : Memref sig .tc .vmem S512x1024 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4096x128 .f32) (harg7 : arg7.IsWhole) (hc0 : cond0 i) (hc1 : ¬cond1 i)
    (x0 : Vec F S4096x256 .f32) (x1 : Vec F S256x128 .f32) (x2 : Vec F S512x1024 .f32) (x3 : Vec F S1x128 .f32) (xo : Vec F S512x128 .f32) (xs : Vec F S4096x128 .f32) :
    Σ' (L4 : List (View.Piece (Elt F) S512x128 .f32)), { LS : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (arg7.view.loc (c : Thread nD τ) ↦[arg7.view.set]{fullShare} arg7.view.writes (Elt F) (harg7.unread xs) LS)) -∗ K ⟨⟩))
          ⊢ wp frame (wpE (defs₀ (F := F)) Variants.none c none) E (cc0__gcn_body i arg2 harg2 arg3 harg3 arg4 harg4 arg5 harg5 arg6 harg6 arg7 harg7) K } := by
  refine ⟨?_, ?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexact HS

/-- The output block after the point: what it held plus the product of the adjacency block with the support rows just
    filled. -/
theorem outB_eq (c : Dev nD) (i : grid0.Coords) (arg2 : Memref sig .tc .vmem S4096x256 .f32) (harg2 : arg2.IsWhole) (arg3 : Memref sig .tc .vmem S256x128 .f32) (harg3 : arg3.IsWhole) (arg4 : Memref sig .tc .vmem S512x1024 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4096x128 .f32) (harg7 : arg7.IsWhole) (hc0 : cond0 i) (hc1 : ¬cond1 i) (x0 : Vec F S4096x256 .f32) (x1 : Vec F S256x128 .f32) (x2 : Vec F S512x1024 .f32) (x3 : Vec F S1x128 .f32) (xo : Vec F S512x128 .f32) (xs : Vec F S4096x128 .f32)
    (f : arg6.view.ty.Contents (Elt F)) :
    arg6.view.read (Elt F) (arg6.view.writes (Elt F) f (runB c i arg2 harg2 arg3 harg3 arg4 harg4 arg5 harg5 arg6 harg6 arg7 harg7 hc0 hc1 x0 x1 x2 x3 xo xs).1)
      = k0_pay3 xo x2 (k0_pay1 (View.ld x0 (rectX i hc0)) x1) := by
  unfold runB; dsimp only; sl_unfold_words
  rw [View.read_writes_eq_canon _ _ _ (fun y => ⟨_, List.mem_cons_self, View.mem_set_unit_zero hz2 inb_S512x128_S512x128_0_0 y⟩)]
  rw [View.canon_unit_zero (S := S512x128) hz2]
  simp only [View.readAt_eq_ld, harg2.read_unread, harg3.read_unread, harg4.read_unread, harg5.read_unread, harg6.read_unread, harg7.read_unread,
    View.ld_unit_zero (S := S512x128) hz2, View.ld_unit_zero (S := S512x1024) hz2, View.ld_unit_zero (S := S1x128) hz2, View.ld_unit_zero (S := S256x128) hz2,
    View.readCov_unit_zero (S := S512x128) _ hz2]
  rw [View.readCov_cons_toLoadRect]
  rfl

/-- The one piece the fill leaves in the scratch. -/
theorem scrB_eq (c : Dev nD) (i : grid0.Coords) (arg2 : Memref sig .tc .vmem S4096x256 .f32) (harg2 : arg2.IsWhole) (arg3 : Memref sig .tc .vmem S256x128 .f32) (harg3 : arg3.IsWhole) (arg4 : Memref sig .tc .vmem S512x1024 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4096x128 .f32) (harg7 : arg7.IsWhole) (hc0 : cond0 i) (hc1 : ¬cond1 i) (x0 : Vec F S4096x256 .f32) (x1 : Vec F S256x128 .f32) (x2 : Vec F S512x1024 .f32) (x3 : Vec F S1x128 .f32) (xo : Vec F S512x128 .f32) (xs : Vec F S4096x128 .f32) :
    (runB c i arg2 harg2 arg3 harg3 arg4 harg4 arg5 harg5 arg6 harg6 arg7 harg7 hc0 hc1 x0 x1 x2 x3 xo xs).2.1
      = [(⟨rectF i hc0, k0_pay1 (View.ld x0 (rectX i hc0)) x1⟩ : View.Piece (Elt F) S4096x128 .f32)] := by
  unfold runB; dsimp only; sl_unfold_words
  simp only [View.readAt_eq_ld, harg2.read_unread, harg3.read_unread, harg4.read_unread, harg5.read_unread, harg6.read_unread, harg7.read_unread,
    View.ld_unit_zero (S := S512x128) hz2, View.ld_unit_zero (S := S512x1024) hz2, View.ld_unit_zero (S := S1x128) hz2, View.ld_unit_zero (S := S256x128) hz2,
    View.readCov_unit_zero (S := S512x128) _ hz2]
  rfl

end Cert.Kernel.Hand

end
-- ==== Proof.BRunC.lean ====
/-
  The kernel's body at the first neighbour block of a later row block (points 4, 8, …, 28): the output block is
  set to the bias row and the product with the support rows already in the scratch (xs) is added.
  The inputs and the scratch stay; the output block ends with the pieces its two stores leave (newest first).
-/
import proofs.«145967_g2000703821448203_pallasbulk_153_9_alg».proof.Proof.BRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runC (c : Dev nD) (i : grid0.Coords) (arg2 : Memref sig .tc .vmem S4096x256 .f32) (harg2 : arg2.IsWhole) (arg3 : Memref sig .tc .vmem S256x128 .f32) (harg3 : arg3.IsWhole) (arg4 : Memref sig .tc .vmem S512x1024 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4096x128 .f32) (harg7 : arg7.IsWhole) (hc0 : ¬cond0 i) (hc1 : cond1 i)
    (x0 : Vec F S4096x256 .f32) (x1 : Vec F S256x128 .f32) (x2 : Vec F S512x1024 .f32) (x3 : Vec F S1x128 .f32) (xs : Vec F S4096x128 .f32) :
    { L4 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs) -∗ K ⟨⟩))
          ⊢ wp frame (wpE (defs₀ (F := F)) Variants.none c none) E (cc0__gcn_body i arg2 harg2 arg3 harg3 arg4 harg4 arg5 harg5 arg6 harg6 arg7 harg7) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; isplitr; · ipureintro; exact harg7.read_unread _
    iexact HS

/-- The output block after the point: the bias row plus the product of the adjacency block with the support rows the
    scratch holds, whatever the block held. -/
theorem outC_eq (c : Dev nD) (i : grid0.Coords) (arg2 : Memref sig .tc .vmem S4096x256 .f32) (harg2 : arg2.IsWhole) (arg3 : Memref sig .tc .vmem S256x128 .f32) (harg3 : arg3.IsWhole) (arg4 : Memref sig .tc .vmem S512x1024 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4096x128 .f32) (harg7 : arg7.IsWhole) (hc0 : ¬cond0 i) (hc1 : cond1 i) (x0 : Vec F S4096x256 .f32) (x1 : Vec F S256x128 .f32) (x2 : Vec F S512x1024 .f32) (x3 : Vec F S1x128 .f32) (xs : Vec F S4096x128 .f32)
    (f : arg6.view.ty.Contents (Elt F)) :
    arg6.view.read (Elt F) (arg6.view.writes (Elt F) f (runC c i arg2 harg2 arg3 harg3 arg4 harg4 arg5 harg5 arg6 harg6 arg7 harg7 hc0 hc1 x0 x1 x2 x3 xs).1)
      = k0_pay3 (k0_pay2 x3) x2 (View.ld xs (rectS i)) := by
  unfold runC; dsimp only; sl_unfold_words
  rw [View.read_writes_eq_canon _ _ _ (fun y => ⟨_, List.mem_cons_self, View.mem_set_unit_zero hz2 inb_S512x128_S512x128_0_0 y⟩)]
  rw [View.canon_cons_unit_zero (S := S512x128) hz2]
  simp only [View.readAt_eq_ld, harg2.read_unread, harg3.read_unread, harg4.read_unread, harg5.read_unread, harg6.read_unread, harg7.read_unread,
    View.ld_unit_zero (S := S512x128) hz2, View.ld_unit_zero (S := S512x1024) hz2, View.ld_unit_zero (S := S1x128) hz2, View.ld_unit_zero (S := S256x128) hz2,
    View.readCov_unit_zero (S := S512x128) _ hz2]
  rfl

end Cert.Kernel.Hand

end
-- ==== Proof.BRunD.lean ====
/-
  The kernel's body at a later neighbour block of a later row block: the product with the support rows already
  in the scratch (xs) is added to what the output block held (xo).
  The inputs and the scratch stay; the output block ends with the piece its store leaves.
-/
import proofs.«145967_g2000703821448203_pallasbulk_153_9_alg».proof.Proof.BRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def runD (c : Dev nD) (i : grid0.Coords) (arg2 : Memref sig .tc .vmem S4096x256 .f32) (harg2 : arg2.IsWhole) (arg3 : Memref sig .tc .vmem S256x128 .f32) (harg3 : arg3.IsWhole) (arg4 : Memref sig .tc .vmem S512x1024 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4096x128 .f32) (harg7 : arg7.IsWhole) (hc0 : ¬cond0 i) (hc1 : ¬cond1 i)
    (x0 : Vec F S4096x256 .f32) (x1 : Vec F S256x128 .f32) (x2 : Vec F S512x1024 .f32) (x3 : Vec F S1x128 .f32) (xo : Vec F S512x128 .f32) (xs : Vec F S4096x128 .f32) :
    { L4 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs) -∗ K ⟨⟩))
          ⊢ wp frame (wpE (defs₀ (F := F)) Variants.none c none) E (cc0__gcn_body i arg2 harg2 arg3 harg3 arg4 harg4 arg5 harg5 arg6 harg6 arg7 harg7) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; isplitr; · ipureintro; exact harg7.read_unread _
    iexact HS

/-- The output block after the point: what it held plus the product of the adjacency block with the support rows the
    scratch holds. -/
theorem outD_eq (c : Dev nD) (i : grid0.Coords) (arg2 : Memref sig .tc .vmem S4096x256 .f32) (harg2 : arg2.IsWhole) (arg3 : Memref sig .tc .vmem S256x128 .f32) (harg3 : arg3.IsWhole) (arg4 : Memref sig .tc .vmem S512x1024 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4096x128 .f32) (harg7 : arg7.IsWhole) (hc0 : ¬cond0 i) (hc1 : ¬cond1 i) (x0 : Vec F S4096x256 .f32) (x1 : Vec F S256x128 .f32) (x2 : Vec F S512x1024 .f32) (x3 : Vec F S1x128 .f32) (xo : Vec F S512x128 .f32) (xs : Vec F S4096x128 .f32)
    (f : arg6.view.ty.Contents (Elt F)) :
    arg6.view.read (Elt F) (arg6.view.writes (Elt F) f (runD c i arg2 harg2 arg3 harg3 arg4 harg4 arg5 harg5 arg6 harg6 arg7 harg7 hc0 hc1 x0 x1 x2 x3 xo xs).1)
      = k0_pay3 xo x2 (View.ld xs (rectS i)) := by
  unfold runD; dsimp only; sl_unfold_words
  rw [View.read_writes_eq_canon _ _ _ (fun y => ⟨_, List.mem_cons_self, View.mem_set_unit_zero hz2 inb_S512x128_S512x128_0_0 y⟩)]
  rw [View.canon_unit_zero (S := S512x128) hz2]
  simp only [View.readAt_eq_ld, harg2.read_unread, harg3.read_unread, harg4.read_unread, harg5.read_unread, harg6.read_unread, harg7.read_unread,
    View.ld_unit_zero (S := S512x128) hz2, View.ld_unit_zero (S := S512x1024) hz2, View.ld_unit_zero (S := S1x128) hz2, View.ld_unit_zero (S := S256x128) hz2,
    View.readCov_unit_zero (S := S512x128) _ hz2]
  rfl

end Cert.Kernel.Hand

end
-- ==== Proof.BData.lean ====
/-
  The graph-convolution kernel, point by point: what the output block and the support scratch hold after each
  point, the pipeline's proof data over them, the body's obligation at every point, and the run.

  The support scratch is filled block by block during the first row block and only read afterwards; nothing names
  what it holds at the region's entry. So the invariant carried between points says of the scratch only this: the
  row blocks already filled (blocks k < t before point t) hold the product of the corresponding rows of x with w;
  the other rows hold anything. What the output block holds after each point is then a definite function of the
  argument arrays: at the first neighbour block the bias row, else what the point before left, plus the product of
  the adjacency block with the support rows of the neighbour block.
-/
import proofs.«145967_g2000703821448203_pallasbulk_153_9_alg».proof.Proof.BRunD

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays the windows stage whole, and the support rows -/

/-- x, w and the bias row as the region finds them. -/
abbrev xarr (c : Dev nD) : Vec F S4096x256 .f32 := V m c (Pipeline.arrRef spec0 0)
abbrev warr (c : Dev nD) : Vec F S256x128 .f32 := V m c (Pipeline.arrRef spec0 1)
abbrev brow (c : Dev nD) : Vec F S1x128 .f32 := V m c (Pipeline.arrRef spec0 3)

/-- The support rows of neighbour block k: rows [1024·k, 1024·k + 1024) of x times w. -/
def supBlk (c : Dev nD) (k : ℕ) (hk : k < 4) : FVec F S1024x128 .f32 :=
  k0_pay1 (View.ld (xarr m c) (rowsX k hk)) (warr m c)

/-- What the output block holds after the body at position n. -/
def outAt (c : Dev nD) : (n : ℕ) → n < cfg0.N → Vec F S512x128 .f32
  | 0, hn => k0_pay3 (k0_pay2 (brow m c)) (iblk m c 2 ⟨0, hn⟩) (supBlk m c 0 (by decide))
  | n + 1, hn =>
    k0_pay3 (if (n + 1) % 4 = 0 then k0_pay2 (brow m c) else outAt c n (Nat.lt_of_succ_lt hn))
      (iblk m c 2 ⟨n + 1, hn⟩) (supBlk m c ((n + 1) % 4) (Nat.mod_lt _ (by decide)))

/-- At a first neighbour block: the bias row plus the product. -/
theorem outAt_reset (c : Dev nD) (t : Fin cfg0.N) (h1 : t.val % 4 = 0) :
    outAt m c t.val t.isLt = k0_pay3 (k0_pay2 (brow m c)) (iblk m c 2 t) (supBlk m c (t.val % 4) (Nat.mod_lt _ (by decide))) := by
  obtain ⟨n, hn⟩ := t
  cases n with
  | zero => rfl
  | succ n => show k0_pay3 (if (n + 1) % 4 = 0 then _ else _) _ _ = _; rw [if_pos h1]

/-- At a later neighbour block: what the point before left plus the product. -/
theorem outAt_acc (c : Dev nD) (t : Fin cfg0.N) (h1 : ¬t.val % 4 = 0) :
    outAt m c t.val t.isLt = k0_pay3 (outAt m c (t.val - 1) (Nat.lt_of_le_of_lt (Nat.sub_le _ _) t.isLt)) (iblk m c 2 t)
      (supBlk m c (t.val % 4) (Nat.mod_lt _ (by decide))) := by
  obtain ⟨n, hn⟩ := t
  cases n with
  | zero => exact absurd (Nat.zero_mod _) h1
  | succ n => show k0_pay3 (if (n + 1) % 4 = 0 then _ else _) _ _ = _; rw [if_neg h1]; rfl

/-- What the invariant says of the scratch before position n: the row blocks filled so far hold their support rows. -/
def Filled (c : Dev nD) (n : ℕ) (d : Vec F S4096x128 .f32) : Prop :=
  ∀ (k : ℕ) (hk : k < 4), k < n → View.ld d (rowsS k hk) = supBlk m c k hk

/-- The region invariant before position n: the scratch owned at contents whose filled row blocks are the support rows,
    beside the generator register at some state. -/
def PhiS (c : Dev nD) (n : ℕ) : sProp 𝕄 :=
  iprop(iprop(∃ d, ⌜Filled m c n d⌝ ∗ owns (c : Thread nD τ) scM fullShare d) ∗ (∃ r, prngReg c r))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t.val t.isLt
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
/-- At a later neighbour block the output's staging buffer holds what the point before left: the block is written
    back only after the last neighbour block. -/
theorem before_4 (c : Dev nD) (t : Fin cfg0.N) (h1 : ¬t.val % 4 = 0) (d) :
    (dats m 0 c).before 4 t d = outAt m c (t.val - 1) (Nat.lt_of_le_of_lt (Nat.sub_le _ _) t.isLt) := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The whole-array windows: their block at every point is the array -/

/-- The index maps of the three windows staged whole are constant zero: decided over the grid. -/
theorem idxWhole : ∀ t : Fin cfg0.N, win0_0.index t (0 : Fin 2) = 0 ∧ win0_0.index t (1 : Fin 2) = 0
    ∧ win0_1.index t (0 : Fin 2) = 0 ∧ win0_1.index t (1 : Fin 2) = 0
    ∧ win0_3.index t (0 : Fin 2) = 0 ∧ win0_3.index t (1 : Fin 2) = 0 :=
  (by decide +kernel : ∀ t : Fin grid0.N, _)

theorem iblk_0 (c : Dev nD) (t : Fin cfg0.N) : iblk m c 0 t = xarr m c := by
  funext y
  show V m c (Pipeline.arrRef spec0 0) (((cfg0.win 0).blk t).view.emb y) = V m c (Pipeline.arrRef spec0 0) y
  refine congrArg _ (funext fun a => Fin.ext ?_)
  obtain ⟨e0, e1, -⟩ := idxWhole t
  match a with
  | ⟨0, _⟩ => show win0_0.index t (0 : Fin 2) * 4096 + 1 * (y 0).val = (y 0).val; omega
  | ⟨1, _⟩ => show win0_0.index t (1 : Fin 2) * 256 + 1 * (y 1).val = (y 1).val; omega

theorem iblk_1 (c : Dev nD) (t : Fin cfg0.N) : iblk m c 1 t = warr m c := by
  funext y
  show V m c (Pipeline.arrRef spec0 1) (((cfg0.win 1).blk t).view.emb y) = V m c (Pipeline.arrRef spec0 1) y
  refine congrArg _ (funext fun a => Fin.ext ?_)
  obtain ⟨-, -, e0, e1, -⟩ := idxWhole t
  match a with
  | ⟨0, _⟩ => show win0_1.index t (0 : Fin 2) * 256 + 1 * (y 0).val = (y 0).val; omega
  | ⟨1, _⟩ => show win0_1.index t (1 : Fin 2) * 128 + 1 * (y 1).val = (y 1).val; omega

theorem iblk_3 (c : Dev nD) (t : Fin cfg0.N) : iblk m c 3 t = brow m c := by
  funext y
  show V m c (Pipeline.arrRef spec0 3) (((cfg0.win 3).blk t).view.emb y) = V m c (Pipeline.arrRef spec0 3) y
  refine congrArg _ (funext fun a => Fin.ext ?_)
  obtain ⟨-, -, -, -, e0, e1⟩ := idxWhole t
  match a with
  | ⟨0, _⟩ => show win0_3.index t (0 : Fin 2) * 1 + 1 * (y 0).val = (y 0).val; omega
  | ⟨1, _⟩ => show win0_3.index t (1 : Fin 2) * 128 + 1 * (y 1).val = (y 1).val; omega

/-! ## The scratch from point to point -/

/-- A load through a unit-stride rectangle depends on the offsets only through their values. -/
theorem ld_unit_congr {S : Shape} {e : EltTy} (X : S.Idx → Elt F e) {off off' size : Fin S.rank → ℕ} (h : off = off')
    (inb : ∀ a, off a + size a ≤ S.size a) (inb' : ∀ a, off' a + size a ≤ S.size a) :
    View.ld X (Rect.unit (s := S) off size inb) = View.ld X (Rect.unit (s := S) off' size inb') := by
  subst h; rfl

theorem supBlk_congr (c : Dev nD) {k k' : ℕ} (h : k = k') (hk : k < 4) (hk' : k' < 4) : supBlk m c k hk = supBlk m c k' hk' := by
  subst h; rfl

/-- What the fill stores at a point of the first row block is the support rows of the point's neighbour block. -/
theorem fill_eq (c : Dev nD) (t : Fin cfg0.N) (hc0 : cond0 (grid0.coords t)) :
    k0_pay1 (View.ld (iblk m c 0 t) (rectX (grid0.coords t) hc0)) (iblk m c 1 t)
      = supBlk m c (t.val % 4) (Nat.mod_lt _ (by decide)) := by
  rw [iblk_0, iblk_1]
  unfold supBlk
  exact congrArg (fun z : Vec F S1024x256 .f32 => k0_pay1 z (warr m c)) (ld_unit_congr (xarr m c) (hoff1 t) _ _)

/-- After the fill at point t < 4 the row blocks up to t hold their support rows. -/
theorem filled_step (c : Dev nD) (t : Fin cfg0.N) (h0 : t.val < 4) (hc0 : cond0 (grid0.coords t)) (d : Vec F S4096x128 .f32)
    (hF : Filled m c t.val d) :
    Filled m c (t.val + 1) (filled scM hscM d (k0_off2 (grid0.coords t)) (k0_off2_inb (grid0.coords t) hc0)
      (k0_pay1 (View.ld (iblk m c 0 t) (rectX (grid0.coords t) hc0)) (iblk m c 1 t))) := by
  intro k hk hlt
  have hmod : t.val % 4 = t.val := Nat.mod_eq_of_lt h0
  funext x
  by_cases hkt : k < t.val
  · have e := congrFun (hF k hk hkt) x
    refine Eq.trans ?_ e
    show filled scM hscM d _ _ _ ((rowsS k hk).idx x) = d ((rowsS k hk).idx x)
    refine filled_out scM hscM d _ _ _ (1024 * (t.val % 4)) (hoff2 t) _ (Or.inl ?_)
    show 1024 * k + 1 * (x 0).val < 1024 * (t.val % 4)
    have hx : (x 0).val < 1024 := (x 0).isLt
    omega
  · have hk' : k = t.val := by omega
    subst hk'
    show filled scM hscM d _ _ _ ((rowsS t.val hk).idx x) = supBlk m c t.val hk x
    rw [filled_in scM hscM d _ _ _ (1024 * (t.val % 4)) (hoff2 t) ((rowsS t.val hk).idx x) x
      (by show 1024 * t.val + 1 * (x 0).val = 1024 * (t.val % 4) + (x 0).val; omega)
      (by show 0 + 1 * (x 1).val = (x 1).val; omega)]
    rw [fill_eq m c t hc0]
    exact congrFun (supBlk_congr m c hmod _ hk) x

/-- At a later row block every row block is filled and stays so. -/
theorem filled_keep (c : Dev nD) (t : Fin cfg0.N) (h0 : ¬t.val < 4) (d : Vec F S4096x128 .f32) (hF : Filled m c t.val d) :
    Filled m c (t.val + 1) d := fun k hk _ => hF k hk (by omega)

/-- and the rows the product reads are the support rows of the point's neighbour block. -/
theorem srows_eq (c : Dev nD) (t : Fin cfg0.N) (h0 : ¬t.val < 4) (d : Vec F S4096x128 .f32) (hF : Filled m c t.val d) :
    View.ld d (rectS (grid0.coords t)) = supBlk m c (t.val % 4) (Nat.mod_lt _ (by decide)) := by
  exact (ld_unit_congr d (hoff3 t) _ _).trans (hF _ _ (by have := Nat.mod_lt t.val (show 0 < 4 by decide); omega))

end Cert.Kernel.Hand

end
-- ==== Proof.BFrame.lean ====
/-
  The graph-convolution kernel: the body's obligation at every point and the run of the whole program.
-/
import proofs.«145967_g2000703821448203_pallasbulk_153_9_alg».proof.Proof.BData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 3200000 in
/-- The body at any point. The inputs' buffers hold their blocks; the closed forms say which of the four cases the point is
    in; at a later neighbour block the output's buffer holds what the point before left; the invariant hands the body the
    scratch at contents whose filled row blocks are the support rows, and takes it back with one more block filled (first
    row block) or as it was (later row blocks, where the rows read are support rows by the invariant). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_0, after_1, after_2, after_3, after_4]
  rw [show (dats m 0 c).Φ t.castSucc = PhiS m c t.val from rfl, show (dats m 0 c).Φ t.succ = PhiS m c (t.val + 1) from rfl]
  unfold PhiS
  have hN : t.val < 32 := lt_of_lt_of_eq t.isLt (show cfg0.N = 32 from N_0)
  by_cases h0 : t.val < 4
  · by_cases h1 : t.val % 4 = 0
    ·
      rw [outAt_reset m c t h1]
      iintro ⟨⟨⟨%d, %hF, HS⟩, Hg⟩, Ho, ⟨%d0, H0⟩, ⟨%d1, H1⟩, ⟨%d2, H2⟩, ⟨%d3, H3⟩, ⟨%d4, H4⟩⟩
      iapply ((runA c (grid0.coords t) _ _ _ _ _ _ _ _ _ _ _ _ ((hcond0 t).mpr h0) ((hcond1 t).mpr h1) (iblk m c 0 t) (iblk m c 1 t) (iblk m c 2 t) (iblk m c 3 t) d).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, HS⟩
      isplitl [HS Hg]
      · isplitl [HS]
        · iexists (filled scM hscM d (k0_off2 (grid0.coords t)) (k0_off2_inb (grid0.coords t) ((hcond0 t).mpr h0))
            (k0_pay1 (View.ld (iblk m c 0 t) (rectX (grid0.coords t) ((hcond0 t).mpr h0))) (iblk m c 1 t)))
          isplitr
          · ipureintro; exact filled_step m c t h0 ((hcond0 t).mpr h0) d hF
          unfold owns; iexists _; isplitr
          swap; · iexact HS
          ipureintro; rw [scrA_eq]; rfl
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; rw [outA_eq]
      exact congrArg₂ (fun (a : Vec F S1x128 .f32) (b : Vec F S1024x128 .f32) => k0_pay3 (k0_pay2 a) (iblk m c 2 t) b)
        (iblk_3 m c t) (fill_eq m c t ((hcond0 t).mpr h0))
    ·
      rw [outAt_acc m c t h1]
      simp only [before_4 m c t h1]
      iintro ⟨⟨⟨%d, %hF, HS⟩, Hg⟩, Ho, ⟨%d0, H0⟩, ⟨%d1, H1⟩, ⟨%d2, H2⟩, ⟨%d3, H3⟩, ⟨%d4, H4⟩⟩
      iapply ((runB c (grid0.coords t) _ _ _ _ _ _ _ _ _ _ _ _ ((hcond0 t).mpr h0) (fun h => h1 ((hcond1 t).mp h)) (iblk m c 0 t) (iblk m c 1 t) (iblk m c 2 t) (iblk m c 3 t) _ d).2.2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, ⟨%e4, H4⟩, HS⟩
      isplitl [HS Hg]
      · isplitl [HS]
        · iexists (filled scM hscM d (k0_off2 (grid0.coords t)) (k0_off2_inb (grid0.coords t) ((hcond0 t).mpr h0))
            (k0_pay1 (View.ld (iblk m c 0 t) (rectX (grid0.coords t) ((hcond0 t).mpr h0))) (iblk m c 1 t)))
          isplitr
          · ipureintro; exact filled_step m c t h0 ((hcond0 t).mpr h0) d hF
          unfold owns; iexists _; isplitr
          swap; · iexact HS
          ipureintro; rw [scrB_eq]; rfl
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; rw [outB_eq]
      exact congrArg (fun (b : Vec F S1024x128 .f32) => k0_pay3 (outAt m c (t.val - 1) (Nat.lt_of_le_of_lt (Nat.sub_le _ _) t.isLt)) (iblk m c 2 t) b)
        (fill_eq m c t ((hcond0 t).mpr h0))
  · by_cases h1 : t.val % 4 = 0
    ·
      rw [outAt_reset m c t h1]
      iintro ⟨⟨⟨%d, %hF, HS⟩, Hg⟩, Ho, ⟨%d0, H0⟩, ⟨%d1, H1⟩, ⟨%d2, H2⟩, ⟨%d3, H3⟩, ⟨%d4, H4⟩⟩
      iapply ((runC c (grid0.coords t) _ _ _ _ _ _ _ _ _ _ _ _ (fun h => h0 ((hcond0 t).mp h)) ((hcond1 t).mpr h1) (iblk m c 0 t) (iblk m c 1 t) (iblk m c 2 t) (iblk m c 3 t) d).2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, HS⟩
      isplitl [HS Hg]
      · isplitl [HS]
        · iexists d
          isplitr
          · ipureintro; exact filled_keep m c t h0 d hF
          iexact HS
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; rw [outC_eq, srows_eq m c t h0 d hF, iblk_3]
    ·
      rw [outAt_acc m c t h1]
      simp only [before_4 m c t h1]
      iintro ⟨⟨⟨%d, %hF, HS⟩, Hg⟩, Ho, ⟨%d0, H0⟩, ⟨%d1, H1⟩, ⟨%d2, H2⟩, ⟨%d3, H3⟩, ⟨%d4, H4⟩⟩
      iapply ((runD c (grid0.coords t) _ _ _ _ _ _ _ _ _ _ _ _ (fun h => h0 ((hcond0 t).mp h)) (fun h => h1 ((hcond1 t).mp h)) (iblk m c 0 t) (iblk m c 1 t) (iblk m c 2 t) (iblk m c 3 t) _ d).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, ⟨%e4, H4⟩, HS⟩
      isplitl [HS Hg]
      · isplitl [HS]
        · iexists d
          isplitr
          · ipureintro; exact filled_keep m c t h0 d hF
          iexact HS
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; rw [outD_eq, srows_eq m c t h0 d hF]

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no row block is filled yet. -/
theorem hin (c : Dev nD) : Pipeline.ΦA spec0 c ⊢ (dats m 0 c).Φ 0 := by
  rw [show (dats m 0 c).Φ 0 = PhiS m c 0 from rfl, PhiA_eq]
  unfold PhiS
  iintro ⟨⟨%d, HS⟩, Hg⟩
  isplitl [HS]
  · iexists d; isplitr
    · ipureintro; intro k hk h; exact absurd h (Nat.not_lt_zero _)
    iexact HS
  iexact Hg

/-- After the last point the invariant gives the class invariant back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%d, -, HS⟩, Hg⟩
  isplitl [HS]
  · iexists d; iexact HS
  iexact Hg

/-! ## The run and the frame -/

set_option backward.isDefEq.respectTransparency.types false in
/-- Every weakly fair execution of the program terminates, and every final state has each array of the pipeline at
    what the proof data's write-backs leave and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.KBase.lean ====
/-
  The graph-convolution kernel's body, point by point: what is shared by its four control cases.

  The grid is 8 row blocks (of 512 rows) by 4 neighbour blocks (of 1024 neighbours), run row block by row block;
  point t is row block t / 4, neighbour block t % 4. At the first row block (t < 4) the body first fills rows
  [1024·(t % 4), 1024·(t % 4) + 1024) of the support scratch; at the first neighbour block (t % 4 = 0) it first
  sets the output block to the bias row; then it always adds the product of the adjacency block with the
  support rows of the neighbour block.
-/
import proofs.«145967_g2000703821448203_pallasbulk_153_9_alg».proof.Proof.Gen.KernelIdeal.Frame
import proofs.«145967_g2000703821448203_pallasbulk_153_9_alg».proof.Proof.Gen.KernelIdeal.Skeleton
import Idealize.ShloMosaic.Lib.Pipeline.Value
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, in closed form over the grid -/

/-- The first branch (fill the support rows): taken exactly at the first row block. -/
abbrev cond0 (i : grid0.Coords) : Prop := k0_cond1 i = 1#1
theorem hcond0 : ∀ t : Fin cfg0.N, cond0 (grid0.coords t) ↔ t.val < 4 :=
  (by decide +kernel : ∀ t : Fin grid0.N, cond0 (grid0.coords t) ↔ t.val < 4)

/-- The second branch (reset the output block to the bias): taken exactly at the first neighbour block. -/
abbrev cond1 (i : grid0.Coords) : Prop := (Scalar.cmpi .ne (Scalar.extui (Scalar.cmpi .eq (BitVec.ofNat 32 (i 1).val) 0#32)) 0#32) = 1#1
theorem hcond1 : ∀ t : Fin cfg0.N, cond1 (grid0.coords t) ↔ t.val % 4 = 0 :=
  (by decide +kernel : ∀ t : Fin grid0.N, cond1 (grid0.coords t) ↔ t.val % 4 = 0)

/-! ## The staging memrefs the body is called with, and the scratch -/

abbrev ms0 (t : Fin cfg0.N) : Memref sig .tc .vmem S4096x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x128 .f32 := win0_4.stage (cfg0.slots t 4)
abbrev hs4 (t : Fin cfg0.N) : (ms4 t).IsWhole := hstage0_4 ((cfg0.slots t 4).cast nbuf0_4)
/-- The support scratch: a whole scoped buffer of the kernel's own. -/
abbrev scM : Memref sig .tc .vmem S4096x128 .f32 := Memref.whole cc0_scratch0
theorem hscM : (scM).IsWhole := Memref.isWhole_whole _

/-- The region's class invariant is the scratch owned at some contents beside the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The rectangles the body addresses, in closed form -/

theorem hz2 : (![0, 0] : Fin 2 → ℕ) = fun _ => 0 := by
  funext a; match a with | ⟨0, _⟩ => rfl | ⟨1, _⟩ => rfl

/-- Two unit-stride rectangles of one size at equal offsets are one rectangle. -/
theorem unit_off_congr {s : Shape} {off off' size : Fin s.rank → ℕ} (h : off = off') (inb : ∀ a, off a + size a ≤ s.size a)
    (inb' : ∀ a, off' a + size a ≤ s.size a) : Rect.unit (s := s) off size inb = Rect.unit (s := s) off' size inb' := by
  subst h; rfl

/-- The rows of x the fill reads at a point of the first row block, as the body addresses them. -/
abbrev rectX (i : grid0.Coords) (h : cond0 i) : Rect S4096x256 := Rect.unit (s := S4096x256) (k0_off1 i) S1024x256.size (k0_off1_inb i h)
/-- The support rows the fill stores, as the body addresses them. -/
abbrev rectF (i : grid0.Coords) (h : cond0 i) : Rect S4096x128 := Rect.unit (s := S4096x128) (k0_off2 i) S1024x128.size (k0_off2_inb i h)
/-- The support rows the product reads, as the body addresses them. -/
abbrev rectS (i : grid0.Coords) : Rect S4096x128 := Rect.unit (s := S4096x128) (k0_off3 i) S1024x128.size (k0_off3_inb i)

theorem inbX (k : ℕ) (hk : k < 4) : ∀ a, (![1024 * k, 0] : Fin 2 → ℕ) a + S1024x256.size a ≤ S4096x256.size a := by
  intro a; match a with
  | ⟨0, _⟩ => show 1024 * k + 1024 ≤ 4096; omega
  | ⟨1, _⟩ => show 0 + 256 ≤ 256; omega
theorem inbS (k : ℕ) (hk : k < 4) : ∀ a, (![1024 * k, 0] : Fin 2 → ℕ) a + S1024x128.size a ≤ S4096x128.size a := by
  intro a; match a with
  | ⟨0, _⟩ => show 1024 * k + 1024 ≤ 4096; omega
  | ⟨1, _⟩ => show 0 + 128 ≤ 128; omega

/-- Rows [1024·k, 1024·k + 1024) of x: the rows of neighbour block k. -/
abbrev rowsX (k : ℕ) (hk : k < 4) : Rect S4096x256 := Rect.unit (s := S4096x256) ![1024 * k, 0] S1024x256.size (inbX k hk)
/-- Rows [1024·k, 1024·k + 1024) of the support scratch. -/
abbrev rowsS (k : ℕ) (hk : k < 4) : Rect S4096x128 := Rect.unit (s := S4096x128) ![1024 * k, 0] S1024x128.size (inbS k hk)

/-- At point t the three row offsets the body computes are 1024 · (t % 4): decided over the grid. -/
theorem hoff1 : ∀ t : Fin cfg0.N, k0_off1 (grid0.coords t) = ![1024 * (t.val % 4), 0] :=
  (by decide +kernel : ∀ t : Fin grid0.N, k0_off1 (grid0.coords t) = ![1024 * (t.val % 4), 0])
theorem hoff2 : ∀ t : Fin cfg0.N, k0_off2 (grid0.coords t) = ![1024 * (t.val % 4), 0] :=
  (by decide +kernel : ∀ t : Fin grid0.N, k0_off2 (grid0.coords t) = ![1024 * (t.val % 4), 0])
theorem hoff3 : ∀ t : Fin cfg0.N, k0_off3 (grid0.coords t) = ![1024 * (t.val % 4), 0] :=
  (by decide +kernel : ∀ t : Fin grid0.N, k0_off3 (grid0.coords t) = ![1024 * (t.val % 4), 0])

theorem rectX_eq (t : Fin cfg0.N) (h : cond0 (grid0.coords t)) : rectX (grid0.coords t) h = rowsX (t.val % 4) (Nat.mod_lt _ (by decide)) :=
  unit_off_congr (hoff1 t) _ _
theorem rectS_eq (t : Fin cfg0.N) : rectS (grid0.coords t) = rowsS (t.val % 4) (Nat.mod_lt _ (by decide)) :=
  unit_off_congr (hoff3 t) _ _

/-! ## The support scratch after the fill of rows [o, o + 1024) -/

section Fill
variable (arg7 : Memref sig .tc .vmem S4096x128 .f32) (harg7 : arg7.IsWhole) (xs : Vec F S4096x128 .f32)
  (off : Fin 2 → ℕ) (inb : ∀ a, off a + S1024x128.size a ≤ S4096x128.size a)
  (w : (Rect.unit (s := S4096x128) off S1024x128.size inb).shape.Idx → Elt F .f32) (o : ℕ)

/-- What the scratch reads after the fill stored w over the contents xs. -/
def filled : Vec F S4096x128 .f32 :=
  arg7.view.read (Elt F) (arg7.view.writes (Elt F) (harg7.unread xs) [(⟨Rect.unit (s := S4096x128) off S1024x128.size inb, w⟩ : View.Piece (Elt F) S4096x128 .f32)])

/-- A row outside [o, o + 1024) keeps what it held. -/
theorem filled_out (hoff : off = ![o, 0]) (y : S4096x128.Idx) (h : (y (0 : Fin 2)).val < o ∨ o + 1024 ≤ (y (0 : Fin 2)).val) :
    filled arg7 harg7 xs off inb w y = xs y := by
  unfold filled
  rw [View.read_writes_cons_rows_of_not_mem (d := ![4096, 128]) arg7.view (harg7.unread xs) inb w [] y hoff (W := 1024) rfl h, View.writes_nil,
    harg7.read_unread]

/-- Row o + x₀, column x₁ holds the stored value at (x₀, x₁). -/
theorem filled_in (hoff : off = ![o, 0]) (y : S4096x128.Idx) (x : (Rect.unit (s := S4096x128) off S1024x128.size inb).shape.Idx)
    (hx0 : (y (0 : Fin 2)).val = o + (x (0 : Fin 2)).val) (hx1 : (y (1 : Fin 2)).val = (x (1 : Fin 2)).val) :
    filled arg7 harg7 xs off inb w y = w x := by
  unfold filled
  exact View.read_writes_cons_rows_of_mem (d := ![4096, 128]) arg7.view (harg7.unread xs) inb w [] y x hoff hx0 hx1
end Fill

end Cert.KernelIdeal.Hand

end
-- ==== Proof.KRunA.lean ====
/-
  The kernel's body at a point of the first row block and first neighbour block (point 0): the support rows
  [0, 1024) are filled from x and w, the output block is set to the bias row and the first product is added.
  The inputs stay; the output block ends with the pieces its two stores leave (newest first) over whatever it held; the
  scratch, entered at xs, ends with the piece the fill leaves over xs.
-/
import proofs.«145967_g2000703821448203_pallasbulk_153_9_alg».proof.Proof.KBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runA (c : Dev nD) (i : grid0.Coords) (arg2 : Memref sig .tc .vmem S4096x256 .f32) (harg2 : arg2.IsWhole) (arg3 : Memref sig .tc .vmem S256x128 .f32) (harg3 : arg3.IsWhole) (arg4 : Memref sig .tc .vmem S512x1024 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4096x128 .f32) (harg7 : arg7.IsWhole) (hc0 : cond0 i) (hc1 : cond1 i)
    (x0 : Vec F S4096x256 .f32) (x1 : Vec F S256x128 .f32) (x2 : Vec F S512x1024 .f32) (x3 : Vec F S1x128 .f32) (xs : Vec F S4096x128 .f32) :
    Σ' (L4 : List (View.Piece (Elt F) S512x128 .f32)), { LS : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (arg7.view.loc (c : Thread nD τ) ↦[arg7.view.set]{fullShare} arg7.view.writes (Elt F) (harg7.unread xs) LS)) -∗ K ⟨⟩))
          ⊢ wp frame (wpE (defs₀ (F := F)) Variants.none c none) E (cc0__gcn_body i arg2 harg2 arg3 harg3 arg4 harg4 arg5 harg5 arg6 harg6 arg7 harg7) K } := by
  refine ⟨?_, ?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexact HS

/-- The output block after the point: the bias row plus the product of the adjacency block with the support rows just
    filled, whatever the block held. -/
theorem outA_eq (c : Dev nD) (i : grid0.Coords) (arg2 : Memref sig .tc .vmem S4096x256 .f32) (harg2 : arg2.IsWhole) (arg3 : Memref sig .tc .vmem S256x128 .f32) (harg3 : arg3.IsWhole) (arg4 : Memref sig .tc .vmem S512x1024 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4096x128 .f32) (harg7 : arg7.IsWhole) (hc0 : cond0 i) (hc1 : cond1 i) (x0 : Vec F S4096x256 .f32) (x1 : Vec F S256x128 .f32) (x2 : Vec F S512x1024 .f32) (x3 : Vec F S1x128 .f32) (xs : Vec F S4096x128 .f32)
    (f : arg6.view.ty.Contents (Elt F)) :
    arg6.view.read (Elt F) (arg6.view.writes (Elt F) f (runA c i arg2 harg2 arg3 harg3 arg4 harg4 arg5 harg5 arg6 harg6 arg7 harg7 hc0 hc1 x0 x1 x2 x3 xs).1)
      = k0_pay3 (k0_pay2 x3) x2 (k0_pay1 (View.ld x0 (rectX i hc0)) x1) := by
  unfold runA; dsimp only; sl_unfold_words
  rw [View.read_writes_eq_canon _ _ _ (fun y => ⟨_, List.mem_cons_self, View.mem_set_unit_zero hz2 inb_S512x128_S512x128_0_0 y⟩)]
  rw [View.canon_cons_unit_zero (S := S512x128) hz2]
  simp only [View.readAt_eq_ld, harg2.read_unread, harg3.read_unread, harg4.read_unread, harg5.read_unread, harg6.read_unread, harg7.read_unread,
    View.ld_unit_zero (S := S512x128) hz2, View.ld_unit_zero (S := S512x1024) hz2, View.ld_unit_zero (S := S1x128) hz2, View.ld_unit_zero (S := S256x128) hz2,
    View.readCov_unit_zero (S := S512x128) _ hz2]
  rw [View.readCov_cons_toLoadRect]
  rfl

/-- The one piece the fill leaves in the scratch: the product of the rows of x with w, at the rows of the neighbour block. -/
theorem scrA_eq (c : Dev nD) (i : grid0.Coords) (arg2 : Memref sig .tc .vmem S4096x256 .f32) (harg2 : arg2.IsWhole) (arg3 : Memref sig .tc .vmem S256x128 .f32) (harg3 : arg3.IsWhole) (arg4 : Memref sig .tc .vmem S512x1024 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4096x128 .f32) (harg7 : arg7.IsWhole) (hc0 : cond0 i) (hc1 : cond1 i) (x0 : Vec F S4096x256 .f32) (x1 : Vec F S256x128 .f32) (x2 : Vec F S512x1024 .f32) (x3 : Vec F S1x128 .f32) (xs : Vec F S4096x128 .f32) :
    (runA c i arg2 harg2 arg3 harg3 arg4 harg4 arg5 harg5 arg6 harg6 arg7 harg7 hc0 hc1 x0 x1 x2 x3 xs).2.1
      = [(⟨rectF i hc0, k0_pay1 (View.ld x0 (rectX i hc0)) x1⟩ : View.Piece (Elt F) S4096x128 .f32)] := by
  unfold runA; dsimp only; sl_unfold_words
  simp only [View.readAt_eq_ld, harg2.read_unread, harg3.read_unread, harg4.read_unread, harg5.read_unread, harg6.read_unread, harg7.read_unread,
    View.ld_unit_zero (S := S512x128) hz2, View.ld_unit_zero (S := S512x1024) hz2, View.ld_unit_zero (S := S1x128) hz2, View.ld_unit_zero (S := S256x128) hz2,
    View.readCov_unit_zero (S := S512x128) _ hz2]
  rfl

end Cert.KernelIdeal.Hand

end
-- ==== Proof.KRunB.lean ====
/-
  The kernel's body at a later neighbour block of the first row block (points 1, 2, 3): the support rows of the
  neighbour block are filled from x and w, and the product is added to what the output block held (xo).
  The inputs stay; the output block ends with the piece its store leaves; the scratch, entered at xs, ends with the
  piece the fill leaves over xs.
-/
import proofs.«145967_g2000703821448203_pallasbulk_153_9_alg».proof.Proof.KRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runB (c : Dev nD) (i : grid0.Coords) (arg2 : Memref sig .tc .vmem S4096x256 .f32) (harg2 : arg2.IsWhole) (arg3 : Memref sig .tc .vmem S256x128 .f32) (harg3 : arg3.IsWhole) (arg4 : Memref sig .tc .vmem S512x1024 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4096x128 .f32) (harg7 : arg7.IsWhole) (hc0 : cond0 i) (hc1 : ¬cond1 i)
    (x0 : Vec F S4096x256 .f32) (x1 : Vec F S256x128 .f32) (x2 : Vec F S512x1024 .f32) (x3 : Vec F S1x128 .f32) (xo : Vec F S512x128 .f32) (xs : Vec F S4096x128 .f32) :
    Σ' (L4 : List (View.Piece (Elt F) S512x128 .f32)), { LS : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (arg7.view.loc (c : Thread nD τ) ↦[arg7.view.set]{fullShare} arg7.view.writes (Elt F) (harg7.unread xs) LS)) -∗ K ⟨⟩))
          ⊢ wp frame (wpE (defs₀ (F := F)) Variants.none c none) E (cc0__gcn_body i arg2 harg2 arg3 harg3 arg4 harg4 arg5 harg5 arg6 harg6 arg7 harg7) K } := by
  refine ⟨?_, ?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexact HS

/-- The output block after the point: what it held plus the product of the adjacency block with the support rows just
    filled. -/
theorem outB_eq (c : Dev nD) (i : grid0.Coords) (arg2 : Memref sig .tc .vmem S4096x256 .f32) (harg2 : arg2.IsWhole) (arg3 : Memref sig .tc .vmem S256x128 .f32) (harg3 : arg3.IsWhole) (arg4 : Memref sig .tc .vmem S512x1024 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4096x128 .f32) (harg7 : arg7.IsWhole) (hc0 : cond0 i) (hc1 : ¬cond1 i) (x0 : Vec F S4096x256 .f32) (x1 : Vec F S256x128 .f32) (x2 : Vec F S512x1024 .f32) (x3 : Vec F S1x128 .f32) (xo : Vec F S512x128 .f32) (xs : Vec F S4096x128 .f32)
    (f : arg6.view.ty.Contents (Elt F)) :
    arg6.view.read (Elt F) (arg6.view.writes (Elt F) f (runB c i arg2 harg2 arg3 harg3 arg4 harg4 arg5 harg5 arg6 harg6 arg7 harg7 hc0 hc1 x0 x1 x2 x3 xo xs).1)
      = k0_pay3 xo x2 (k0_pay1 (View.ld x0 (rectX i hc0)) x1) := by
  unfold runB; dsimp only; sl_unfold_words
  rw [View.read_writes_eq_canon _ _ _ (fun y => ⟨_, List.mem_cons_self, View.mem_set_unit_zero hz2 inb_S512x128_S512x128_0_0 y⟩)]
  rw [View.canon_unit_zero (S := S512x128) hz2]
  simp only [View.readAt_eq_ld, harg2.read_unread, harg3.read_unread, harg4.read_unread, harg5.read_unread, harg6.read_unread, harg7.read_unread,
    View.ld_unit_zero (S := S512x128) hz2, View.ld_unit_zero (S := S512x1024) hz2, View.ld_unit_zero (S := S1x128) hz2, View.ld_unit_zero (S := S256x128) hz2,
    View.readCov_unit_zero (S := S512x128) _ hz2]
  rw [View.readCov_cons_toLoadRect]
  rfl

/-- The one piece the fill leaves in the scratch. -/
theorem scrB_eq (c : Dev nD) (i : grid0.Coords) (arg2 : Memref sig .tc .vmem S4096x256 .f32) (harg2 : arg2.IsWhole) (arg3 : Memref sig .tc .vmem S256x128 .f32) (harg3 : arg3.IsWhole) (arg4 : Memref sig .tc .vmem S512x1024 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4096x128 .f32) (harg7 : arg7.IsWhole) (hc0 : cond0 i) (hc1 : ¬cond1 i) (x0 : Vec F S4096x256 .f32) (x1 : Vec F S256x128 .f32) (x2 : Vec F S512x1024 .f32) (x3 : Vec F S1x128 .f32) (xo : Vec F S512x128 .f32) (xs : Vec F S4096x128 .f32) :
    (runB c i arg2 harg2 arg3 harg3 arg4 harg4 arg5 harg5 arg6 harg6 arg7 harg7 hc0 hc1 x0 x1 x2 x3 xo xs).2.1
      = [(⟨rectF i hc0, k0_pay1 (View.ld x0 (rectX i hc0)) x1⟩ : View.Piece (Elt F) S4096x128 .f32)] := by
  unfold runB; dsimp only; sl_unfold_words
  simp only [View.readAt_eq_ld, harg2.read_unread, harg3.read_unread, harg4.read_unread, harg5.read_unread, harg6.read_unread, harg7.read_unread,
    View.ld_unit_zero (S := S512x128) hz2, View.ld_unit_zero (S := S512x1024) hz2, View.ld_unit_zero (S := S1x128) hz2, View.ld_unit_zero (S := S256x128) hz2,
    View.readCov_unit_zero (S := S512x128) _ hz2]
  rfl

end Cert.KernelIdeal.Hand

end
-- ==== Proof.KRunC.lean ====
/-
  The kernel's body at the first neighbour block of a later row block (points 4, 8, …, 28): the output block is
  set to the bias row and the product with the support rows already in the scratch (xs) is added.
  The inputs and the scratch stay; the output block ends with the pieces its two stores leave (newest first).
-/
import proofs.«145967_g2000703821448203_pallasbulk_153_9_alg».proof.Proof.KRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runC (c : Dev nD) (i : grid0.Coords) (arg2 : Memref sig .tc .vmem S4096x256 .f32) (harg2 : arg2.IsWhole) (arg3 : Memref sig .tc .vmem S256x128 .f32) (harg3 : arg3.IsWhole) (arg4 : Memref sig .tc .vmem S512x1024 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4096x128 .f32) (harg7 : arg7.IsWhole) (hc0 : ¬cond0 i) (hc1 : cond1 i)
    (x0 : Vec F S4096x256 .f32) (x1 : Vec F S256x128 .f32) (x2 : Vec F S512x1024 .f32) (x3 : Vec F S1x128 .f32) (xs : Vec F S4096x128 .f32) :
    { L4 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs) -∗ K ⟨⟩))
          ⊢ wp frame (wpE (defs₀ (F := F)) Variants.none c none) E (cc0__gcn_body i arg2 harg2 arg3 harg3 arg4 harg4 arg5 harg5 arg6 harg6 arg7 harg7) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; isplitr; · ipureintro; exact harg7.read_unread _
    iexact HS

/-- The output block after the point: the bias row plus the product of the adjacency block with the support rows the
    scratch holds, whatever the block held. -/
theorem outC_eq (c : Dev nD) (i : grid0.Coords) (arg2 : Memref sig .tc .vmem S4096x256 .f32) (harg2 : arg2.IsWhole) (arg3 : Memref sig .tc .vmem S256x128 .f32) (harg3 : arg3.IsWhole) (arg4 : Memref sig .tc .vmem S512x1024 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4096x128 .f32) (harg7 : arg7.IsWhole) (hc0 : ¬cond0 i) (hc1 : cond1 i) (x0 : Vec F S4096x256 .f32) (x1 : Vec F S256x128 .f32) (x2 : Vec F S512x1024 .f32) (x3 : Vec F S1x128 .f32) (xs : Vec F S4096x128 .f32)
    (f : arg6.view.ty.Contents (Elt F)) :
    arg6.view.read (Elt F) (arg6.view.writes (Elt F) f (runC c i arg2 harg2 arg3 harg3 arg4 harg4 arg5 harg5 arg6 harg6 arg7 harg7 hc0 hc1 x0 x1 x2 x3 xs).1)
      = k0_pay3 (k0_pay2 x3) x2 (View.ld xs (rectS i)) := by
  unfold runC; dsimp only; sl_unfold_words
  rw [View.read_writes_eq_canon _ _ _ (fun y => ⟨_, List.mem_cons_self, View.mem_set_unit_zero hz2 inb_S512x128_S512x128_0_0 y⟩)]
  rw [View.canon_cons_unit_zero (S := S512x128) hz2]
  simp only [View.readAt_eq_ld, harg2.read_unread, harg3.read_unread, harg4.read_unread, harg5.read_unread, harg6.read_unread, harg7.read_unread,
    View.ld_unit_zero (S := S512x128) hz2, View.ld_unit_zero (S := S512x1024) hz2, View.ld_unit_zero (S := S1x128) hz2, View.ld_unit_zero (S := S256x128) hz2,
    View.readCov_unit_zero (S := S512x128) _ hz2]
  rfl

end Cert.KernelIdeal.Hand

end
-- ==== Proof.KRunD.lean ====
/-
  The kernel's body at a later neighbour block of a later row block: the product with the support rows already
  in the scratch (xs) is added to what the output block held (xo).
  The inputs and the scratch stay; the output block ends with the piece its store leaves.
-/
import proofs.«145967_g2000703821448203_pallasbulk_153_9_alg».proof.Proof.KRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def runD (c : Dev nD) (i : grid0.Coords) (arg2 : Memref sig .tc .vmem S4096x256 .f32) (harg2 : arg2.IsWhole) (arg3 : Memref sig .tc .vmem S256x128 .f32) (harg3 : arg3.IsWhole) (arg4 : Memref sig .tc .vmem S512x1024 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4096x128 .f32) (harg7 : arg7.IsWhole) (hc0 : ¬cond0 i) (hc1 : ¬cond1 i)
    (x0 : Vec F S4096x256 .f32) (x1 : Vec F S256x128 .f32) (x2 : Vec F S512x1024 .f32) (x3 : Vec F S1x128 .f32) (xo : Vec F S512x128 .f32) (xs : Vec F S4096x128 .f32) :
    { L4 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs) -∗ K ⟨⟩))
          ⊢ wp frame (wpE (defs₀ (F := F)) Variants.none c none) E (cc0__gcn_body i arg2 harg2 arg3 harg3 arg4 harg4 arg5 harg5 arg6 harg6 arg7 harg7) K } := by
  refine ⟨?_, fun E K => ?run⟩
  case run =>
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; iexact H4
    iexists _; isplitr; · ipureintro; exact harg7.read_unread _
    iexact HS

/-- The output block after the point: what it held plus the product of the adjacency block with the support rows the
    scratch holds. -/
theorem outD_eq (c : Dev nD) (i : grid0.Coords) (arg2 : Memref sig .tc .vmem S4096x256 .f32) (harg2 : arg2.IsWhole) (arg3 : Memref sig .tc .vmem S256x128 .f32) (harg3 : arg3.IsWhole) (arg4 : Memref sig .tc .vmem S512x1024 .f32) (harg4 : arg4.IsWhole) (arg5 : Memref sig .tc .vmem S1x128 .f32) (harg5 : arg5.IsWhole) (arg6 : Memref sig .tc .vmem S512x128 .f32) (harg6 : arg6.IsWhole) (arg7 : Memref sig .tc .vmem S4096x128 .f32) (harg7 : arg7.IsWhole) (hc0 : ¬cond0 i) (hc1 : ¬cond1 i) (x0 : Vec F S4096x256 .f32) (x1 : Vec F S256x128 .f32) (x2 : Vec F S512x1024 .f32) (x3 : Vec F S1x128 .f32) (xo : Vec F S512x128 .f32) (xs : Vec F S4096x128 .f32)
    (f : arg6.view.ty.Contents (Elt F)) :
    arg6.view.read (Elt F) (arg6.view.writes (Elt F) f (runD c i arg2 harg2 arg3 harg3 arg4 harg4 arg5 harg5 arg6 harg6 arg7 harg7 hc0 hc1 x0 x1 x2 x3 xo xs).1)
      = k0_pay3 xo x2 (View.ld xs (rectS i)) := by
  unfold runD; dsimp only; sl_unfold_words
  rw [View.read_writes_eq_canon _ _ _ (fun y => ⟨_, List.mem_cons_self, View.mem_set_unit_zero hz2 inb_S512x128_S512x128_0_0 y⟩)]
  rw [View.canon_unit_zero (S := S512x128) hz2]
  simp only [View.readAt_eq_ld, harg2.read_unread, harg3.read_unread, harg4.read_unread, harg5.read_unread, harg6.read_unread, harg7.read_unread,
    View.ld_unit_zero (S := S512x128) hz2, View.ld_unit_zero (S := S512x1024) hz2, View.ld_unit_zero (S := S1x128) hz2, View.ld_unit_zero (S := S256x128) hz2,
    View.readCov_unit_zero (S := S512x128) _ hz2]
  rfl

end Cert.KernelIdeal.Hand

end
-- ==== Proof.KData.lean ====
/-
  The graph-convolution kernel, point by point: what the output block and the support scratch hold after each
  point, the pipeline's proof data over them, the body's obligation at every point, and the run.

  The support scratch is filled block by block during the first row block and only read afterwards; nothing names
  what it holds at the region's entry. So the invariant carried between points says of the scratch only this: the
  row blocks already filled (blocks k < t before point t) hold the product of the corresponding rows of x with w;
  the other rows hold anything. What the output block holds after each point is then a definite function of the
  argument arrays: at the first neighbour block the bias row, else what the point before left, plus the product of
  the adjacency block with the support rows of the neighbour block.
-/
import proofs.«145967_g2000703821448203_pallasbulk_153_9_alg».proof.Proof.KRunD

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays the windows stage whole, and the support rows -/

/-- x, w and the bias row as the region finds them. -/
abbrev xarr (c : Dev nD) : Vec F S4096x256 .f32 := V m c (Pipeline.arrRef spec0 0)
abbrev warr (c : Dev nD) : Vec F S256x128 .f32 := V m c (Pipeline.arrRef spec0 1)
abbrev brow (c : Dev nD) : Vec F S1x128 .f32 := V m c (Pipeline.arrRef spec0 3)

/-- The support rows of neighbour block k: rows [1024·k, 1024·k + 1024) of x times w. -/
def supBlk (c : Dev nD) (k : ℕ) (hk : k < 4) : FVec F S1024x128 .f32 :=
  k0_pay1 (View.ld (xarr m c) (rowsX k hk)) (warr m c)

/-- What the output block holds after the body at position n. -/
def outAt (c : Dev nD) : (n : ℕ) → n < cfg0.N → Vec F S512x128 .f32
  | 0, hn => k0_pay3 (k0_pay2 (brow m c)) (iblk m c 2 ⟨0, hn⟩) (supBlk m c 0 (by decide))
  | n + 1, hn =>
    k0_pay3 (if (n + 1) % 4 = 0 then k0_pay2 (brow m c) else outAt c n (Nat.lt_of_succ_lt hn))
      (iblk m c 2 ⟨n + 1, hn⟩) (supBlk m c ((n + 1) % 4) (Nat.mod_lt _ (by decide)))

/-- At a first neighbour block: the bias row plus the product. -/
theorem outAt_reset (c : Dev nD) (t : Fin cfg0.N) (h1 : t.val % 4 = 0) :
    outAt m c t.val t.isLt = k0_pay3 (k0_pay2 (brow m c)) (iblk m c 2 t) (supBlk m c (t.val % 4) (Nat.mod_lt _ (by decide))) := by
  obtain ⟨n, hn⟩ := t
  cases n with
  | zero => rfl
  | succ n => show k0_pay3 (if (n + 1) % 4 = 0 then _ else _) _ _ = _; rw [if_pos h1]

/-- At a later neighbour block: what the point before left plus the product. -/
theorem outAt_acc (c : Dev nD) (t : Fin cfg0.N) (h1 : ¬t.val % 4 = 0) :
    outAt m c t.val t.isLt = k0_pay3 (outAt m c (t.val - 1) (Nat.lt_of_le_of_lt (Nat.sub_le _ _) t.isLt)) (iblk m c 2 t)
      (supBlk m c (t.val % 4) (Nat.mod_lt _ (by decide))) := by
  obtain ⟨n, hn⟩ := t
  cases n with
  | zero => exact absurd (Nat.zero_mod _) h1
  | succ n => show k0_pay3 (if (n + 1) % 4 = 0 then _ else _) _ _ = _; rw [if_neg h1]; rfl

/-- What the invariant says of the scratch before position n: the row blocks filled so far hold their support rows. -/
def Filled (c : Dev nD) (n : ℕ) (d : Vec F S4096x128 .f32) : Prop :=
  ∀ (k : ℕ) (hk : k < 4), k < n → View.ld d (rowsS k hk) = supBlk m c k hk

/-- The region invariant before position n: the scratch owned at contents whose filled row blocks are the support rows,
    beside the generator register at some state. -/
def PhiS (c : Dev nD) (n : ℕ) : sProp 𝕄 :=
  iprop(iprop(∃ d, ⌜Filled m c n d⌝ ∗ owns (c : Thread nD τ) scM fullShare d) ∗ (∃ r, prngReg c r))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t.val t.isLt
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
/-- At a later neighbour block the output's staging buffer holds what the point before left: the block is written
    back only after the last neighbour block. -/
theorem before_4 (c : Dev nD) (t : Fin cfg0.N) (h1 : ¬t.val % 4 = 0) (d) :
    (dats m 0 c).before 4 t d = outAt m c (t.val - 1) (Nat.lt_of_le_of_lt (Nat.sub_le _ _) t.isLt) := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The whole-array windows: their block at every point is the array -/

/-- The index maps of the three windows staged whole are constant zero: decided over the grid. -/
theorem idxWhole : ∀ t : Fin cfg0.N, win0_0.index t (0 : Fin 2) = 0 ∧ win0_0.index t (1 : Fin 2) = 0
    ∧ win0_1.index t (0 : Fin 2) = 0 ∧ win0_1.index t (1 : Fin 2) = 0
    ∧ win0_3.index t (0 : Fin 2) = 0 ∧ win0_3.index t (1 : Fin 2) = 0 :=
  (by decide +kernel : ∀ t : Fin grid0.N, _)

theorem iblk_0 (c : Dev nD) (t : Fin cfg0.N) : iblk m c 0 t = xarr m c := by
  funext y
  show V m c (Pipeline.arrRef spec0 0) (((cfg0.win 0).blk t).view.emb y) = V m c (Pipeline.arrRef spec0 0) y
  refine congrArg _ (funext fun a => Fin.ext ?_)
  obtain ⟨e0, e1, -⟩ := idxWhole t
  match a with
  | ⟨0, _⟩ => show win0_0.index t (0 : Fin 2) * 4096 + 1 * (y 0).val = (y 0).val; omega
  | ⟨1, _⟩ => show win0_0.index t (1 : Fin 2) * 256 + 1 * (y 1).val = (y 1).val; omega

theorem iblk_1 (c : Dev nD) (t : Fin cfg0.N) : iblk m c 1 t = warr m c := by
  funext y
  show V m c (Pipeline.arrRef spec0 1) (((cfg0.win 1).blk t).view.emb y) = V m c (Pipeline.arrRef spec0 1) y
  refine congrArg _ (funext fun a => Fin.ext ?_)
  obtain ⟨-, -, e0, e1, -⟩ := idxWhole t
  match a with
  | ⟨0, _⟩ => show win0_1.index t (0 : Fin 2) * 256 + 1 * (y 0).val = (y 0).val; omega
  | ⟨1, _⟩ => show win0_1.index t (1 : Fin 2) * 128 + 1 * (y 1).val = (y 1).val; omega

theorem iblk_3 (c : Dev nD) (t : Fin cfg0.N) : iblk m c 3 t = brow m c := by
  funext y
  show V m c (Pipeline.arrRef spec0 3) (((cfg0.win 3).blk t).view.emb y) = V m c (Pipeline.arrRef spec0 3) y
  refine congrArg _ (funext fun a => Fin.ext ?_)
  obtain ⟨-, -, -, -, e0, e1⟩ := idxWhole t
  match a with
  | ⟨0, _⟩ => show win0_3.index t (0 : Fin 2) * 1 + 1 * (y 0).val = (y 0).val; omega
  | ⟨1, _⟩ => show win0_3.index t (1 : Fin 2) * 128 + 1 * (y 1).val = (y 1).val; omega

/-! ## The scratch from point to point -/

/-- A load through a unit-stride rectangle depends on the offsets only through their values. -/
theorem ld_unit_congr {S : Shape} {e : EltTy} (X : S.Idx → Elt F e) {off off' size : Fin S.rank → ℕ} (h : off = off')
    (inb : ∀ a, off a + size a ≤ S.size a) (inb' : ∀ a, off' a + size a ≤ S.size a) :
    View.ld X (Rect.unit (s := S) off size inb) = View.ld X (Rect.unit (s := S) off' size inb') := by
  subst h; rfl

theorem supBlk_congr (c : Dev nD) {k k' : ℕ} (h : k = k') (hk : k < 4) (hk' : k' < 4) : supBlk m c k hk = supBlk m c k' hk' := by
  subst h; rfl

/-- What the fill stores at a point of the first row block is the support rows of the point's neighbour block. -/
theorem fill_eq (c : Dev nD) (t : Fin cfg0.N) (hc0 : cond0 (grid0.coords t)) :
    k0_pay1 (View.ld (iblk m c 0 t) (rectX (grid0.coords t) hc0)) (iblk m c 1 t)
      = supBlk m c (t.val % 4) (Nat.mod_lt _ (by decide)) := by
  rw [iblk_0, iblk_1]
  unfold supBlk
  exact congrArg (fun z : Vec F S1024x256 .f32 => k0_pay1 z (warr m c)) (ld_unit_congr (xarr m c) (hoff1 t) _ _)

/-- After the fill at point t < 4 the row blocks up to t hold their support rows. -/
theorem filled_step (c : Dev nD) (t : Fin cfg0.N) (h0 : t.val < 4) (hc0 : cond0 (grid0.coords t)) (d : Vec F S4096x128 .f32)
    (hF : Filled m c t.val d) :
    Filled m c (t.val + 1) (filled scM hscM d (k0_off2 (grid0.coords t)) (k0_off2_inb (grid0.coords t) hc0)
      (k0_pay1 (View.ld (iblk m c 0 t) (rectX (grid0.coords t) hc0)) (iblk m c 1 t))) := by
  intro k hk hlt
  have hmod : t.val % 4 = t.val := Nat.mod_eq_of_lt h0
  funext x
  by_cases hkt : k < t.val
  · have e := congrFun (hF k hk hkt) x
    refine Eq.trans ?_ e
    show filled scM hscM d _ _ _ ((rowsS k hk).idx x) = d ((rowsS k hk).idx x)
    refine filled_out scM hscM d _ _ _ (1024 * (t.val % 4)) (hoff2 t) _ (Or.inl ?_)
    show 1024 * k + 1 * (x 0).val < 1024 * (t.val % 4)
    have hx : (x 0).val < 1024 := (x 0).isLt
    omega
  · have hk' : k = t.val := by omega
    subst hk'
    show filled scM hscM d _ _ _ ((rowsS t.val hk).idx x) = supBlk m c t.val hk x
    rw [filled_in scM hscM d _ _ _ (1024 * (t.val % 4)) (hoff2 t) ((rowsS t.val hk).idx x) x
      (by show 1024 * t.val + 1 * (x 0).val = 1024 * (t.val % 4) + (x 0).val; omega)
      (by show 0 + 1 * (x 1).val = (x 1).val; omega)]
    rw [fill_eq m c t hc0]
    exact congrFun (supBlk_congr m c hmod _ hk) x

/-- At a later row block every row block is filled and stays so. -/
theorem filled_keep (c : Dev nD) (t : Fin cfg0.N) (h0 : ¬t.val < 4) (d : Vec F S4096x128 .f32) (hF : Filled m c t.val d) :
    Filled m c (t.val + 1) d := fun k hk _ => hF k hk (by omega)

/-- and the rows the product reads are the support rows of the point's neighbour block. -/
theorem srows_eq (c : Dev nD) (t : Fin cfg0.N) (h0 : ¬t.val < 4) (d : Vec F S4096x128 .f32) (hF : Filled m c t.val d) :
    View.ld d (rectS (grid0.coords t)) = supBlk m c (t.val % 4) (Nat.mod_lt _ (by decide)) := by
  exact (ld_unit_congr d (hoff3 t) _ _).trans (hF _ _ (by have := Nat.mod_lt t.val (show 0 < 4 by decide); omega))

end Cert.KernelIdeal.Hand

end
-- ==== Proof.KFrame.lean ====
/-
  The graph-convolution kernel: the body's obligation at every point and the run of the whole program.
-/
import proofs.«145967_g2000703821448203_pallasbulk_153_9_alg».proof.Proof.KData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 3200000 in
/-- The body at any point. The inputs' buffers hold their blocks; the closed forms say which of the four cases the point is
    in; at a later neighbour block the output's buffer holds what the point before left; the invariant hands the body the
    scratch at contents whose filled row blocks are the support rows, and takes it back with one more block filled (first
    row block) or as it was (later row blocks, where the rows read are support rows by the invariant). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl,
    after_0, after_1, after_2, after_3, after_4]
  rw [show (dats m 0 c).Φ t.castSucc = PhiS m c t.val from rfl, show (dats m 0 c).Φ t.succ = PhiS m c (t.val + 1) from rfl]
  unfold PhiS
  have hN : t.val < 32 := lt_of_lt_of_eq t.isLt (show cfg0.N = 32 from N_0)
  by_cases h0 : t.val < 4
  · by_cases h1 : t.val % 4 = 0
    ·
      rw [outAt_reset m c t h1]
      iintro ⟨⟨⟨%d, %hF, HS⟩, Hg⟩, Ho, ⟨%d0, H0⟩, ⟨%d1, H1⟩, ⟨%d2, H2⟩, ⟨%d3, H3⟩, ⟨%d4, H4⟩⟩
      iapply ((runA c (grid0.coords t) _ _ _ _ _ _ _ _ _ _ _ _ ((hcond0 t).mpr h0) ((hcond1 t).mpr h1) (iblk m c 0 t) (iblk m c 1 t) (iblk m c 2 t) (iblk m c 3 t) d).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, HS⟩
      isplitl [HS Hg]
      · isplitl [HS]
        · iexists (filled scM hscM d (k0_off2 (grid0.coords t)) (k0_off2_inb (grid0.coords t) ((hcond0 t).mpr h0))
            (k0_pay1 (View.ld (iblk m c 0 t) (rectX (grid0.coords t) ((hcond0 t).mpr h0))) (iblk m c 1 t)))
          isplitr
          · ipureintro; exact filled_step m c t h0 ((hcond0 t).mpr h0) d hF
          unfold owns; iexists _; isplitr
          swap; · iexact HS
          ipureintro; rw [scrA_eq]; rfl
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; rw [outA_eq]
      exact congrArg₂ (fun (a : Vec F S1x128 .f32) (b : Vec F S1024x128 .f32) => k0_pay3 (k0_pay2 a) (iblk m c 2 t) b)
        (iblk_3 m c t) (fill_eq m c t ((hcond0 t).mpr h0))
    ·
      rw [outAt_acc m c t h1]
      simp only [before_4 m c t h1]
      iintro ⟨⟨⟨%d, %hF, HS⟩, Hg⟩, Ho, ⟨%d0, H0⟩, ⟨%d1, H1⟩, ⟨%d2, H2⟩, ⟨%d3, H3⟩, ⟨%d4, H4⟩⟩
      iapply ((runB c (grid0.coords t) _ _ _ _ _ _ _ _ _ _ _ _ ((hcond0 t).mpr h0) (fun h => h1 ((hcond1 t).mp h)) (iblk m c 0 t) (iblk m c 1 t) (iblk m c 2 t) (iblk m c 3 t) _ d).2.2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, ⟨%e4, H4⟩, HS⟩
      isplitl [HS Hg]
      · isplitl [HS]
        · iexists (filled scM hscM d (k0_off2 (grid0.coords t)) (k0_off2_inb (grid0.coords t) ((hcond0 t).mpr h0))
            (k0_pay1 (View.ld (iblk m c 0 t) (rectX (grid0.coords t) ((hcond0 t).mpr h0))) (iblk m c 1 t)))
          isplitr
          · ipureintro; exact filled_step m c t h0 ((hcond0 t).mpr h0) d hF
          unfold owns; iexists _; isplitr
          swap; · iexact HS
          ipureintro; rw [scrB_eq]; rfl
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; rw [outB_eq]
      exact congrArg (fun (b : Vec F S1024x128 .f32) => k0_pay3 (outAt m c (t.val - 1) (Nat.lt_of_le_of_lt (Nat.sub_le _ _) t.isLt)) (iblk m c 2 t) b)
        (fill_eq m c t ((hcond0 t).mpr h0))
  · by_cases h1 : t.val % 4 = 0
    ·
      rw [outAt_reset m c t h1]
      iintro ⟨⟨⟨%d, %hF, HS⟩, Hg⟩, Ho, ⟨%d0, H0⟩, ⟨%d1, H1⟩, ⟨%d2, H2⟩, ⟨%d3, H3⟩, ⟨%d4, H4⟩⟩
      iapply ((runC c (grid0.coords t) _ _ _ _ _ _ _ _ _ _ _ _ (fun h => h0 ((hcond0 t).mp h)) ((hcond1 t).mpr h1) (iblk m c 0 t) (iblk m c 1 t) (iblk m c 2 t) (iblk m c 3 t) d).2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, HS⟩
      isplitl [HS Hg]
      · isplitl [HS]
        · iexists d
          isplitr
          · ipureintro; exact filled_keep m c t h0 d hF
          iexact HS
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; rw [outC_eq, srows_eq m c t h0 d hF, iblk_3]
    ·
      rw [outAt_acc m c t h1]
      simp only [before_4 m c t h1]
      iintro ⟨⟨⟨%d, %hF, HS⟩, Hg⟩, Ho, ⟨%d0, H0⟩, ⟨%d1, H1⟩, ⟨%d2, H2⟩, ⟨%d3, H3⟩, ⟨%d4, H4⟩⟩
      iapply ((runD c (grid0.coords t) _ _ _ _ _ _ _ _ _ _ _ _ (fun h => h0 ((hcond0 t).mp h)) (fun h => h1 ((hcond1 t).mp h)) (iblk m c 0 t) (iblk m c 1 t) (iblk m c 2 t) (iblk m c 3 t) _ d).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, ⟨%e4, H4⟩, HS⟩
      isplitl [HS Hg]
      · isplitl [HS]
        · iexists d
          isplitr
          · ipureintro; exact filled_keep m c t h0 d hF
          iexact HS
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; rw [outD_eq, srows_eq m c t h0 d hF]

/-- The body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no row block is filled yet. -/
theorem hin (c : Dev nD) : Pipeline.ΦA spec0 c ⊢ (dats m 0 c).Φ 0 := by
  rw [show (dats m 0 c).Φ 0 = PhiS m c 0 from rfl, PhiA_eq]
  unfold PhiS
  iintro ⟨⟨%d, HS⟩, Hg⟩
  isplitl [HS]
  · iexists d; isplitr
    · ipureintro; intro k hk h; exact absurd h (Nat.not_lt_zero _)
    iexact HS
  iexact Hg

/-- After the last point the invariant gives the class invariant back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%d, -, HS⟩, Hg⟩
  isplitl [HS]
  · iexists d; iexact HS
  iexact Hg

/-! ## The run and the frame -/

set_option backward.isDefEq.respectTransparency.types false in
/-- Every weakly fair execution of the program terminates, and every final state has each array of the pipeline at
    what the proof data's write-backs leave and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs and leaves its four argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.Spec.lean ====
/-
  The graph-convolution layer as one function of its four argument arrays, at the ideal values (extended reals).

  For node features x (4096 × 256), adjacency adj (4096 × 4096), weights w (256 × 128) and bias b (128):
    support(j, q) = Σ_f x(j, f) · w(f, q)                      (the feature transform)
    out(r, q)     = Σ_j adj(r, j) · support(j, q)  +  b(q)      (the aggregation over the neighbours, plus the bias)

  Both programs reach out(r, q) by running over the neighbour index j in consecutive blocks (of 1024 or of 512), so
  the sum over j is kept as a sum over an initial segment of the naturals: `pre n` is the sum over j < n, a block
  of B further neighbours adds the B terms that follow (`pre_block`), and the whole range is the sum over every
  neighbour (`pre_full`). Only commutativity and associativity of addition on the extended reals are used.
-/
import Idealize.ShloMosaic.PureOps.Ideal
import Idealize.ShloMosaic.Lib.ValueIdx
import Mathlib.Algebra.BigOperators.Intervals
import Mathlib.Algebra.BigOperators.Fin

noncomputable section

open scoped BigOperators

namespace Cert.Spec

open Idealize.ShloMosaic Idealize.ShloMosaic.ValueIdx

/-- The feature transform at node j, output feature q: Σ_f x(j, f) · w(f, q). -/
def sup (x : FVec Ideal ⟨2, ![4096, 256]⟩ .f32) (w : FVec Ideal ⟨2, ![256, 128]⟩ .f32) (j : Fin 4096) (q : Fin 128) : EReal :=
  ∑ f : Fin 256, x (ix2 j f) * w (ix2 f q)

/-- Neighbour j's contribution to row r, feature q, for any table s of per-node features: adj(r, j) · s(j, q)
    (zero past the last node, so that it is a function of a natural number). -/
def term (adj : FVec Ideal ⟨2, ![4096, 4096]⟩ .f32) (s : Fin 4096 → Fin 128 → EReal) (r : Fin 4096) (q : Fin 128) (j : ℕ) : EReal :=
  if h : j < 4096 then adj (ix2 r ⟨j, h⟩) * s ⟨j, h⟩ q else 0

/-- The contributions of the first n neighbours. -/
def pre (adj : FVec Ideal ⟨2, ![4096, 4096]⟩ .f32) (s : Fin 4096 → Fin 128 → EReal) (r : Fin 4096) (q : Fin 128) (n : ℕ) : EReal :=
  ∑ j ∈ Finset.range n, term adj s r q j

theorem pre_zero (adj : FVec Ideal ⟨2, ![4096, 4096]⟩ .f32) (s : Fin 4096 → Fin 128 → EReal) (r : Fin 4096) (q : Fin 128) :
    pre adj s r q 0 = 0 := by
  simp [pre]

/-- A block of B further neighbours adds its B terms. -/
theorem pre_block (adj : FVec Ideal ⟨2, ![4096, 4096]⟩ .f32) (s : Fin 4096 → Fin 128 → EReal) (r : Fin 4096) (q : Fin 128)
    (n B : ℕ) : pre adj s r q (n + B) = pre adj s r q n + ∑ i : Fin B, term adj s r q (n + i.val) := by
  unfold pre
  rw [Finset.sum_range_add]
  exact congrArg _ (Finset.sum_range fun i => term adj s r q (n + i))

/-- A neighbour inside the graph contributes adj(r, j) · s(j, q). -/
theorem term_lt (adj : FVec Ideal ⟨2, ![4096, 4096]⟩ .f32) (s : Fin 4096 → Fin 128 → EReal) (r : Fin 4096) (q : Fin 128)
    (j : ℕ) (h : j < 4096) : term adj s r q j = adj (ix2 r ⟨j, h⟩) * s ⟨j, h⟩ q := by
  unfold term; rw [dif_pos h]

/-- All 4096 neighbours: the plain sum. -/
theorem pre_full (adj : FVec Ideal ⟨2, ![4096, 4096]⟩ .f32) (s : Fin 4096 → Fin 128 → EReal) (r : Fin 4096) (q : Fin 128) :
    pre adj s r q 4096 = ∑ j : Fin 4096, adj (ix2 r j) * s j q := by
  unfold pre
  rw [Finset.sum_range]
  exact Finset.sum_congr rfl fun j _ => term_lt adj s r q j.val j.isLt

/-- The layer's output at row r, feature q. -/
def gcn (x : FVec Ideal ⟨2, ![4096, 256]⟩ .f32) (adj : FVec Ideal ⟨2, ![4096, 4096]⟩ .f32) (w : FVec Ideal ⟨2, ![256, 128]⟩ .f32)
    (b : FVec Ideal ⟨1, ![128]⟩ .f32) (r : Fin 4096) (q : Fin 128) : EReal :=
  pre adj (sup x w) r q 4096 + b (ix1 q)

/-- The layer's output as an array. -/
def out (x : FVec Ideal ⟨2, ![4096, 256]⟩ .f32) (adj : FVec Ideal ⟨2, ![4096, 4096]⟩ .f32) (w : FVec Ideal ⟨2, ![256, 128]⟩ .f32)
    (b : FVec Ideal ⟨1, ![128]⟩ .f32) : FVec Ideal ⟨2, ![4096, 128]⟩ .f32 :=
  fun i => gcn x adj w b (i 0) (i 1)

theorem out_apply (x : FVec Ideal ⟨2, ![4096, 256]⟩ .f32) (adj : FVec Ideal ⟨2, ![4096, 4096]⟩ .f32) (w : FVec Ideal ⟨2, ![256, 128]⟩ .f32)
    (b : FVec Ideal ⟨1, ![128]⟩ .f32) (r : Fin 4096) (q : Fin 128) : out x adj w b (ix2 r q) = gcn x adj w b r q := rfl

end Cert.Spec

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.KValue.lean ====
/-
  What the graph-convolution kernel leaves in its result array, at the ideal values:
  out(r, q) = Σ_j adj(r, j) · support(j, q) + b(q), with support(j, q) = Σ_f x(j, f) · w(f, q).

  The grid is 8 row blocks of 512 rows by 4 neighbour blocks of 1024 neighbours, point 4·i + k. The support rows of
  neighbour block k are the product of rows 1024·k … 1024·k + 1023 of x with w, so their entry (j, q) is
  support(1024·k + j, q). At k = 0 the output block is set to the bias row down its 512 rows; every point adds the
  product of the adjacency block (i, k) with the support rows of block k. So after point 4·i + k the block holds,
  at (p, q), b(q) plus the sum over the neighbours below 1024·(k + 1) of row 512·i + p (by induction on k); after
  k = 3 that is b(q) plus the whole row's sum, which is the layer's output by commutativity of +, and the eight
  write-backs tile the 4096 rows.
-/
import proofs.«145967_g2000703821448203_pallasbulk_153_9_alg».proof.Proof.KFrame
import proofs.«145967_g2000703821448203_pallasbulk_153_9_alg».proof.Proof.Spec
import proofs.«145967_g2000703821448203_pallasbulk_153_9_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Hand
open scoped BigOperators

/-! ## The three stored values at an entry, over the extended reals -/

section Payloads

/-- The support rows: entry (j, q) of the product into the zero accumulator is Σ_f X(j, f) · W(f, q). -/
theorem supPay_apply (v17 : Vec Ideal S1024x256 .f32) (v18 : Vec Ideal S256x128 .f32) (j : Fin 1024) (q : Fin 128) :
    k0_pay1 (F := Ideal) v17 v18 (ix2 j q) = ∑ f : Fin 256, v17 (ix2 j f) * v18 (ix2 f q) := by
  unfold k0_pay1
  simp only [shapeCast_self]
  exact Cert.LibMatmulPlain.matmul_plain_zero_apply none v17 v18 j q

/-- The reset: the bias row down the rows, so entry (p, q) is the row's entry in column q. -/
theorem biasPay_apply (v16 : Vec Ideal S1x128 .f32) (p : Fin 512) (q : Fin 128) :
    k0_pay2 (F := Ideal) v16 (ix2 p q) = v16 (ix2 0 q) := by
  unfold k0_pay2
  simp only [shapeCast_self]
  exact Cert.LibMatmulPlain.rowBroadcast_apply v16 broadcasts_S1x128_S512x128 p q

/-- The update: the block's entry plus the 1024 products of the adjacency block's row with the support rows' column. -/
theorem accPay_apply (v8 : Vec Ideal S512x128 .f32) (v10 : Vec Ideal S512x1024 .f32) (v12 : Vec Ideal S1024x128 .f32)
    (p : Fin 512) (q : Fin 128) :
    k0_pay3 (F := Ideal) v8 v10 v12 (ix2 p q) = v8 (ix2 p q) + ∑ j : Fin 1024, v10 (ix2 p j) * v12 (ix2 j q) := by
  unfold k0_pay3
  simp only [shapeCast_self]
  exact congrArg (v8 (ix2 p q) + ·) (Cert.LibMatmulPlain.matmul_plain_zero_apply none v10 v12 p q)

end Payloads

/-! ## The arrays and blocks a grid point reads, entry by entry -/

section Blocks
variable (m : (ℓ : Loc nD τ sig) → Buf (Elt Ideal) ℓ)

/-- The four launch arrays, and the feature transform the partial sums are over. -/
abbrev xT (c : Dev nD) : FVec Ideal ⟨2, ![4096, 256]⟩ .f32 := m ((c.tc : Thread nD τ).loc main_arg0)
abbrev adjT (c : Dev nD) : FVec Ideal ⟨2, ![4096, 4096]⟩ .f32 := m ((c.tc : Thread nD τ).loc main_arg1)
abbrev wT (c : Dev nD) : FVec Ideal ⟨2, ![256, 128]⟩ .f32 := m ((c.tc : Thread nD τ).loc main_arg2)
abbrev bT (c : Dev nD) : FVec Ideal ⟨1, ![128]⟩ .f32 := m ((c.tc : Thread nD τ).loc main_arg3)
abbrev supT (c : Dev nD) : Fin 4096 → Fin 128 → EReal := Cert.Spec.sup (xT m c) (wT m c)

/-- Row 512·i + p of the 4096, for a row block i of the 8 and a place p inside the block. -/
def rowAt (i : Fin 8) (p : Fin 512) : Fin 4096 := ⟨512 * i.val + p.val, by have := i.isLt; have := p.isLt; omega⟩
/-- Neighbour 1024·k + j of the 4096, for a neighbour block k of the 4 and a place j inside the block. -/
def nbrAt (k : Fin 4) (j : Fin 1024) : Fin 4096 := ⟨1024 * k.val + j.val, by have := k.isLt; have := j.isLt; omega⟩

/-- The index maps over the 8 × 4 grid, point t = 4·i + k: the adjacency block is block (i, k), the output block is
    row block i. -/
theorem grid_facts : ∀ t : Fin cfg0.N,
    win0_2.index t (0 : Fin 2) = t.val / 4 ∧ win0_2.index t (1 : Fin 2) = t.val % 4
    ∧ win0_4.index t (0 : Fin 2) = t.val / 4 ∧ win0_4.index t (1 : Fin 2) = 0 :=
  (by decide +kernel : ∀ t : Fin grid0.N, _)

/-- The bias row the pipeline reads is the launch bias as one row: column q holds b(q). -/
theorem brow_apply (c : Dev nD) (q : Fin 128) :
    brow (F := Ideal) m c (ix2 (0 : Fin 1) q) = bT m c (ix1 q) := by
  have e : (V m c main_v0 : S1x128.Idx → EReal)
      = shapeCast S1x128 (m ((c.tc : Thread nD τ).loc main_arg3)) shapeCasts_S128_S1x128 := by
    dsimp only [V, hostOps0]; after_results; rfl
  exact (congrFun e (ix2 (0 : Fin 1) q)).trans (shapeCast_a_1a_apply _ shapeCasts_S128_S1x128 0 q)

/-- The adjacency block at point t. -/
abbrev adjBlk (c : Dev nD) (t : Fin cfg0.N) : Vec Ideal S512x1024 .f32 := iblk m c 2 t

/-- The adjacency block at point 4·i + k, entry (p, j): adj(512·i + p, 1024·k + j). -/
theorem adjBlk_apply (c : Dev nD) (t : Fin cfg0.N) (i : Fin 8) (k : Fin 4) (ht : t.val = 4 * i.val + k.val)
    (p : Fin 512) (j : Fin 1024) :
    adjBlk m c t (ix2 p j) = adjT m c (ix2 (rowAt i p) (nbrAt k j)) := by
  obtain ⟨e0, e1, -⟩ := grid_facts t
  have hi := i.isLt; have hk := k.isLt
  show V m c main_arg1 (((cfg0.win 2).blk t).view.emb (ix2 p j)) = _
  refine (congrFun (V_main_arg1 m c) _).trans (congrArg _ ?_)
  funext a; apply Fin.ext
  match a with
  | ⟨0, _⟩ => show win0_2.index t (0 : Fin 2) * 512 + 1 * p.val = 512 * i.val + p.val; omega
  | ⟨1, _⟩ => show win0_2.index t (1 : Fin 2) * 1024 + 1 * j.val = 1024 * k.val + j.val; omega

/-- The support rows of neighbour block k, entry (j, q): support(1024·k + j, q). -/
theorem supBlk_apply (c : Dev nD) (n : ℕ) (hn : n < 4) (k : Fin 4) (e : n = k.val) (j : Fin 1024) (q : Fin 128) :
    supBlk (F := Ideal) m c n hn (ix2 j q) = supT m c (nbrAt k j) q := by
  subst e
  unfold supBlk
  refine (supPay_apply (View.ld (xarr m c) (rowsX k.val hn)) (warr m c) j q).trans ?_
  show _ = Cert.Spec.sup (xT m c) (wT m c) (nbrAt k j) q
  unfold Cert.Spec.sup
  refine Finset.sum_congr rfl fun f _ => congrArg₂ (· * ·) ?_ (congrFun (V_main_arg2 m c) (ix2 f q))
  show V m c main_arg0 ((rowsX k.val hn).idx (ix2 j f)) = _
  refine (congrFun (V_main_arg0 m c) _).trans (congrArg _ ?_)
  funext a; apply Fin.ext
  match a with
  | ⟨0, _⟩ => show 1024 * k.val + 1 * j.val = 1024 * k.val + j.val; omega
  | ⟨1, _⟩ => show 0 + 1 * f.val = f.val; omega

/-- The 1024 products the update adds at point 4·i + k are the neighbours 1024·k … 1024·k + 1023 of the row's sum. -/
theorem block_sum (c : Dev nD) (t : Fin cfg0.N) (i : Fin 8) (k : ℕ) (hk : k < 4) (ht : t.val = 4 * i.val + k)
    (p : Fin 512) (q : Fin 128) :
    ∑ j : Fin 1024, adjBlk m c t (ix2 p j) * supBlk m c (t.val % 4) (Nat.mod_lt _ (by decide)) (ix2 j q)
      = ∑ j : Fin 1024, Cert.Spec.term (adjT m c) (supT m c) (rowAt i p) q (1024 * k + j.val) := by
  refine Finset.sum_congr rfl fun j _ => ?_
  refine (congrArg₂ (· * ·) (adjBlk_apply m c t i ⟨k, hk⟩ ht p j)
    (supBlk_apply m c (t.val % 4) (Nat.mod_lt _ (by decide)) ⟨k, hk⟩ (by show t.val % 4 = k; omega) j q)).trans ?_
  exact (Cert.Spec.term_lt (adjT m c) (supT m c) (rowAt i p) q (1024 * k + j.val) (nbrAt ⟨k, hk⟩ j).isLt).symm

end Blocks

/-! ## The running sum over the neighbour blocks -/

section Invariant
variable (m : (ℓ : Loc nD τ sig) → Buf (Elt Ideal) ℓ)

/-- The block's contents after a point depend on the point's number only. -/
theorem outAt_cast (c : Dev nD) {n n' : ℕ} (e : n = n') (h : n < cfg0.N) (h' : n' < cfg0.N) :
    outAt m c n h = outAt m c n' h' := by subst e; rfl

/-- After the point of row block i and neighbour block k the output block holds, at (p, q), b(q) plus the sum over
    the neighbours below 1024·(k + 1) of row 512·i + p: by induction on k (the first point resets to the bias and
    adds, the others add). -/
theorem acc_eq (c : Dev nD) (i : Fin 8) : ∀ (k : ℕ) (hk : k < 4) (hn : 4 * i.val + k < cfg0.N) (p : Fin 512) (q : Fin 128),
    outAt m c (4 * i.val + k) hn (ix2 p q)
      = bT m c (ix1 q) + Cert.Spec.pre (adjT m c) (supT m c) (rowAt i p) q (1024 * k + 1024)
  | 0, hk, hn, p, q => by
    have h0 : (⟨4 * i.val + 0, hn⟩ : Fin cfg0.N).val % 4 = 0 := by show (4 * i.val + 0) % 4 = 0; omega
    refine (congrFun (outAt_reset m c ⟨4 * i.val + 0, hn⟩ h0) (ix2 p q)).trans ?_
    refine (accPay_apply (k0_pay2 (brow m c)) (adjBlk m c ⟨4 * i.val + 0, hn⟩)
      (supBlk m c ((⟨4 * i.val + 0, hn⟩ : Fin cfg0.N).val % 4) (Nat.mod_lt _ (by decide))) p q).trans ?_
    rw [biasPay_apply (brow m c) p q, brow_apply m c q, block_sum m c ⟨4 * i.val + 0, hn⟩ i 0 (by omega) rfl p q,
      Cert.Spec.pre_block, Nat.mul_zero, Cert.Spec.pre_zero, zero_add]
  | k + 1, hk, hn, p, q => by
    have h0 : ¬(⟨4 * i.val + (k + 1), hn⟩ : Fin cfg0.N).val % 4 = 0 := by show ¬(4 * i.val + (k + 1)) % 4 = 0; omega
    have e1 : (⟨4 * i.val + (k + 1), hn⟩ : Fin cfg0.N).val - 1 = 4 * i.val + k := by show 4 * i.val + (k + 1) - 1 = _; omega
    refine (congrFun (outAt_acc m c ⟨4 * i.val + (k + 1), hn⟩ h0) (ix2 p q)).trans ?_
    refine (accPay_apply (outAt m c ((⟨4 * i.val + (k + 1), hn⟩ : Fin cfg0.N).val - 1) (Nat.lt_of_le_of_lt (Nat.sub_le _ _) hn))
      (adjBlk m c ⟨4 * i.val + (k + 1), hn⟩)
      (supBlk m c ((⟨4 * i.val + (k + 1), hn⟩ : Fin cfg0.N).val % 4) (Nat.mod_lt _ (by decide))) p q).trans ?_
    rw [block_sum m c ⟨4 * i.val + (k + 1), hn⟩ i (k + 1) hk rfl p q, Cert.Spec.pre_block,
      show 1024 * (k + 1) = 1024 * k + 1024 from by omega]
    exact (congrArg (· + _) ((congrFun (outAt_cast m c e1 _ (Nat.lt_of_succ_lt hn)) (ix2 p q)).trans
      (acc_eq c i k (by omega) (Nat.lt_of_succ_lt hn) p q))).trans (add_assoc _ _ _)

end Invariant

/-! ## From the output blocks to the result array -/

section Final
variable (m : (ℓ : Loc nD τ sig) → Buf (Elt Ideal) ℓ)

/-- The layer's output as one array of the four launch arrays. -/
abbrev outT (c : Dev nD) : FVec Ideal ⟨2, ![4096, 128]⟩ .f32 := Cert.Spec.out (xT m c) (adjT m c) (wT m c) (bT m c)

/-- What a write-back point (the last neighbour block of row block i) writes is rows 512·i … 512·i + 511 of the output. -/
theorem flushed_eq (c : Dev nD) (t : Fin cfg0.N) (hf : (cfg0.win 4).flush t = true) :
    (dats (F := Ideal) m 0 c).flushed 4 t = ((cfg0.win 4).blk t).view.read (Elt Ideal) (outT m c) := by
  have h3 : t.val % 4 = 3 := (flush0_4 t).mp hf
  have hN : t.val < 32 := lt_of_lt_of_eq t.isLt (show cfg0.N = 32 from N_0)
  obtain ⟨-, -, e4, e5⟩ := grid_facts t
  have hi : t.val / 4 < 8 := by omega
  have e : t.val = 4 * (t.val / 4) + 3 := by omega
  have h' : 4 * (t.val / 4) + 3 < cfg0.N := lt_of_eq_of_lt e.symm t.isLt
  show (cfg0.win 4).cut (grid0.coords t) ((dats m 0 c).after 4 t) = _
  rw [after_4]
  funext y
  have hp : (y 0).val < 512 := (y 0).isLt
  have hq : (y 1).val < 128 := (y 1).isLt
  have hL : (cfg0.win 4).xinj (grid0.coords t) y = ix2 (⟨(y 0).val, hp⟩ : Fin 512) (⟨(y 1).val, hq⟩ : Fin 128) := by
    funext a; match a with | ⟨0, _⟩ => rfl | ⟨1, _⟩ => rfl
  have hR : ((cfg0.win 4).blk t).view.emb y
      = ix2 (rowAt ⟨t.val / 4, hi⟩ ⟨(y 0).val, hp⟩) (⟨(y 1).val, hq⟩ : Fin 128) := by
    funext a; apply Fin.ext
    match a with
    | ⟨0, _⟩ => show win0_4.index t (0 : Fin 2) * 512 + 1 * (y 0).val = 512 * (t.val / 4) + (y 0).val; omega
    | ⟨1, _⟩ => show win0_4.index t (1 : Fin 2) * 128 + 1 * (y 1).val = (y 1).val; omega
  show outAt m c t.val t.isLt ((cfg0.win 4).xinj (grid0.coords t) y) = outT m c (((cfg0.win 4).blk t).view.emb y)
  rw [hL, hR, outAt_cast m c e t.isLt h']
  refine (acc_eq m c ⟨t.val / 4, hi⟩ 3 (by omega) h' ⟨(y 0).val, hp⟩ ⟨(y 1).val, hq⟩).trans ?_
  show _ = Cert.Spec.pre (adjT m c) (supT m c) (rowAt ⟨t.val / 4, hi⟩ ⟨(y 0).val, hp⟩) ⟨(y 1).val, hq⟩ 4096
    + bT m c (ix1 ⟨(y 1).val, hq⟩)
  exact add_comm _ _

/-- Row r of the output is written by the last point of its row block, 4·(r / 512) + 3. -/
theorem covered (c : Dev nD) (y : S4096x128.Idx) :
    ∃ t : Fin cfg0.N, (cfg0.win 4).flush t = true ∧ y ∈ ((cfg0.win 4).blk t).view.set := by
  have h0 : (y 0).val < 4096 := (y 0).isLt
  have h1 : (y 1).val < 128 := (y 1).isLt
  have hN : cfg0.N = 32 := N_0
  have ht : 4 * ((y 0).val / 512) + 3 < cfg0.N := by rw [hN]; omega
  obtain ⟨-, -, e4, e5⟩ := grid_facts ⟨4 * ((y 0).val / 512) + 3, ht⟩
  have ev : (⟨4 * ((y 0).val / 512) + 3, ht⟩ : Fin cfg0.N).val = 4 * ((y 0).val / 512) + 3 := rfl
  refine ⟨⟨4 * ((y 0).val / 512) + 3, ht⟩, (flush0_4 _).mpr (by rw [ev]; omega), ?_⟩
  show y ∈ ((View.whole main_v1).slice (win0_4.rect ⟨4 * ((y 0).val / 512) + 3, ht⟩)).set
  rw [View.set_slice_whole, Rect.mem_set_unit]
  intro a
  match a with
  | ⟨0, _⟩ =>
    show win0_4.index ⟨4 * ((y 0).val / 512) + 3, ht⟩ (0 : Fin 2) * 512 ≤ (y 0).val
      ∧ (y 0).val < win0_4.index ⟨4 * ((y 0).val / 512) + 3, ht⟩ (0 : Fin 2) * 512 + 512
    rw [e4, ev]; omega
  | ⟨1, _⟩ =>
    show win0_4.index ⟨4 * ((y 0).val / 512) + 3, ht⟩ (1 : Fin 2) * 128 ≤ (y 1).val
      ∧ (y 1).val < win0_4.index ⟨4 * ((y 0).val / 512) + 3, ht⟩ (1 : Fin 2) * 128 + 128
    rw [e5]; omega

/-- After the run the result array is the layer's output, as arrays. -/
theorem arr_eq (c : Dev nD) : (dats (F := Ideal) m 0 c).arrAt 4 cfg0.N = outT m c :=
  (dats (F := Ideal) m 0 c).arrAt_eq_of_cover 4 (outT m c) (flushed_eq m c) (covered c)

end Final

/-- After the run the result array holds the layer's output. -/
theorem out_eq (m : (ℓ : Loc nD τ sig) → Buf (Elt Ideal) ℓ) (c : Dev nD) (r : Fin 4096) (q : Fin 128) :
    (dats (F := Ideal) m 0 c).arrAt 4 cfg0.N (ix2 r q)
      = Cert.Spec.gcn (m ((c.tc : Thread nD τ).loc main_arg0)) (m ((c.tc : Thread nD τ).loc main_arg1))
          (m ((c.tc : Thread nD τ).loc main_arg2)) (m ((c.tc : Thread nD τ).loc main_arg3)) r q :=
  congrFun (arr_eq m c) (ix2 r q)

/-- Every weakly fair execution of the kernel's program ends with the result array at the layer's output and the four
    argument arrays as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v1) = Cert.Spec.out (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (arr_eq m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩)
    (run_main m ρ)

end Cert.KernelIdeal.HandValue

end
-- ==== Proof.RefSupport.lean ====
/-
  What the reference's first pipeline leaves in the support array: support(j, q) = Σ_f x(j, f) · w(f, q).

  The pipeline runs over 8 row blocks of 512 nodes. At row block t the body zeroes a 512 × 128 accumulator, adds to it
  the product of x's rows 512 t … 512 t + 511 (a 512 × 256 block) by the whole of w (256 × 128), and writes the
  accumulator, changed to the output's format, as rows 512 t … 512 t + 511 of the support array. Over the extended
  reals the change of format is the identity, the zero word is 0 and 0 + y = y, so entry (p, q) of the block is
  Σ_f x(512 t + p, f) · w(f, q); the 8 blocks tile the 4096 rows, so every entry of the array is that sum.
-/
import proofs.«145967_g2000703821448203_pallasbulk_153_9_alg».proof.Proof.Gen.ReferenceIdeal.Frame
import proofs.«145967_g2000703821448203_pallasbulk_153_9_alg».proof.Proof.Spec
import proofs.«145967_g2000703821448203_pallasbulk_153_9_alg».proof.Proof.LibMatmulPlain
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Idealize.ShloMosaic.Pipeline (Dat Cfg Window)
open Cert.ReferenceIdeal Cert.ReferenceIdeal.Gen
open Idealize.ShloMosaic.Tactic

variable (m : (ℓ : Loc nD τ sig) → Buf (Elt Ideal) ℓ) (ρ : Dev nD → PrngReg)

/-! ## What the body leaves in the output's block -/

section AnyFloat
variable {F : FTy → Type} [FloatOps F]

/-- The zero offsets of a whole rank-2 block, however the two zeros are written. -/
theorem hz : (![0, 0] : Fin 2 → Nat) = fun _ => 0 := funext fun a => by fin_cases a <;> rfl

/-- What the body leaves in the output's block, for any float values: the accumulator is set to zero, the
    product of the node block by the weights is added to it, and the sum, changed to the output's format, is the
    block's contents. -/
theorem out_eq (c : Dev nD) (i : grid0.Coords) (a2 : Memref sig .tc .vmem S512x256 .f32) (h2 : a2.IsWhole)
    (a3 : Memref sig .tc .vmem S256x128 .f32) (h3 : a3.IsWhole) (a4 : Memref sig .tc .vmem S512x128 .bf16) (h4 : a4.IsWhole)
    (a5 : Memref sig .tc .vmem S512x128 .f32) (h5 : a5.IsWhole) (hc0 : cond0_0 i) (hc1 : cond0_1 i)
    (x0 : Vec F S512x256 .f32) (x1 : Vec F S256x128 .f32) :
    out0_A_2 (F := F) c i a2 h2 a3 h3 a4 h4 a5 h5 hc0 hc1 x0 x1 = k0_pay3 (k0_pay2 k0_pay1 x0 x1) := by
  unfold out0_A_2
  rw [View.read_writes_eq_canon _ _ _ (cover0_A_2 c i a2 h2 a3 h3 a4 h4 a5 h5 hc0 hc1 x0 x1)]
  unfold kernelRun0_A
  dsimp only
  sl_unfold_words
  rw [View.canon_unit_zero hz]
  simp only [View.readCov_cons_toLoadRect, View.readAt_eq_ld, h2.read_unread, h3.read_unread,
    View.ld_unit_zero (S := S512x256) hz, View.ld_unit_zero (S := S256x128) hz]

end AnyFloat

/-- At the extended reals the block's entry (p, q) is Σ_f x(p, f) · w(f, q): the change of format is the identity,
    the zero word is 0, 0 + y = y, and the product into the zero accumulator is the plain sum over the contracted
    coordinate. -/
theorem pay_apply (x0 : FVec Ideal S512x256 .f32) (x1 : FVec Ideal S256x128 .f32) (p : Fin 512) (q : Fin 128) :
    k0_pay3 (F := Ideal) (k0_pay2 (F := Ideal) (k0_pay1 (F := Ideal)) x0 x1) (ix2 p q) = ∑ f : Fin 256, x0 (ix2 p f) * x1 (ix2 f q) := by
  unfold k0_pay3 k0_pay2 k0_pay1
  simp only [shapeCast_self]
  show Ideal.ofBits .f32 0x00000000#32
      + FloatOps.matmul (DotDims.plain 512 256 128) none x0 x1 (constant ⟨2, ![512, 128]⟩ .f32 0x00000000#32) (ix2 p q) = _
  rw [Ideal.ofBits_zero_f32, zero_add]
  exact Cert.LibMatmulPlain.matmul_plain_zero_apply none x0 x1 p q

/-! ## From the blocks to the support array -/

/-- The host operations before the first pipeline (a reshape of the bias, a change of format of adj) do not
    write x: the pipeline finds it as launched. -/
theorem entry_x (c : Dev nD) : V1 m ρ c main_arg0 = m ((c.tc : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- Nor w. -/
theorem entry_w (c : Dev nD) : V1 m ρ c main_arg2 = m ((c.tc : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The block indices at grid point t: x's and the output's block is row block t, w's block is all of w. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- x's block at point t, entry (p, f), is x(512 t + p, f). -/
theorem xblk_apply (c : Dev nD) (t : Fin cfg0.N) (p : Fin 512) (f : Fin 256) (r : Fin 4096)
    (hr : r.val = t.val * 512 + p.val) :
    (iblk0 (F := Ideal) (V1 m ρ) c 0 t : Vec Ideal S512x256 .f32) (ix2 p f)
      = m ((c.tc : Thread nD τ).loc main_arg0) (ix2 r f) := by
  unfold iblk0
  rw [View.read_apply]
  show V1 m ρ c main_arg0 _ = _
  rw [entry_x]
  congr 1
  funext a
  apply Fin.ext
  obtain ⟨e0, e1, -⟩ := idx_facts t
  match a with
  | ⟨0, _⟩ => show win0_0.index t (0 : Fin 2) * 512 + 1 * p.val = r.val; rw [e0]; omega
  | ⟨1, _⟩ => show win0_0.index t (1 : Fin 2) * 256 + 1 * f.val = f.val; rw [e1]; omega

/-- w's block at any point, entry (f, q), is w(f, q). -/
theorem wblk_apply (c : Dev nD) (t : Fin cfg0.N) (f : Fin 256) (q : Fin 128) :
    (iblk0 (F := Ideal) (V1 m ρ) c 1 t : Vec Ideal S256x128 .f32) (ix2 f q)
      = m ((c.tc : Thread nD τ).loc main_arg2) (ix2 f q) := by
  unfold iblk0
  rw [View.read_apply]
  show V1 m ρ c main_arg2 _ = _
  rw [entry_w]
  congr 1
  funext a
  apply Fin.ext
  obtain ⟨-, -, e2, e3, -⟩ := idx_facts t
  match a with
  | ⟨0, _⟩ => show win0_1.index t (0 : Fin 2) * 256 + 1 * f.val = f.val; rw [e2]; omega
  | ⟨1, _⟩ => show win0_1.index t (1 : Fin 2) * 128 + 1 * q.val = q.val; rw [e3]; omega

/-- The support array as one function of x and w: entry (j, q) is Σ_f x(j, f) · w(f, q). -/
def suppArr (c : Dev nD) : Buf (Elt Ideal) ((c.tc : Thread nD τ).loc main_v2) :=
  fun i => Cert.Spec.sup (m ((c.tc : Thread nD τ).loc main_arg0)) (m ((c.tc : Thread nD τ).loc main_arg2)) (i 0) (i 1)

/-- Contents X of the output's block whose entry (p, q) is the array function's entry (512 t + p, q) are block t
    of that function. -/
theorem block_of_entries (c : Dev nD) (t : Fin cfg0.N) (X : Vec Ideal S512x128 .bf16)
    (A : Buf (Elt Ideal) ((c.tc : Thread nD τ).loc main_v2))
    (h : ∀ (p : Fin 512) (q : Fin 128) (r : Fin 4096), r.val = t.val * 512 + p.val → X (ix2 p q) = A (ix2 r q)) :
    (cfg0.win 2).cut (grid0.coords t) X = ((cfg0.win 2).blk t).view.read (Elt Ideal) A := by
  funext y
  have hp : (y 0).val < 512 := (y 0).isLt
  have ht : t.val < 8 := Nat.lt_of_lt_of_eq t.isLt N_0
  obtain ⟨-, -, -, -, e4, e5⟩ := idx_facts t
  rw [View.read_apply]
  show X y = _
  refine ((congrArg X (eq_ix2 (n0 := 512) (n1 := 128) y)).trans
    (h (y 0) (y 1) ⟨t.val * 512 + (y 0).val, by omega⟩ rfl)).trans (congrArg A ?_)
  funext a
  apply Fin.ext
  match a with
  | ⟨0, _⟩ => show t.val * 512 + (y 0).val = win0_2.index t (0 : Fin 2) * 512 + 1 * (y 0).val; rw [e4]; omega
  | ⟨1, _⟩ => show (y 1).val = win0_2.index t (1 : Fin 2) * 128 + 1 * (y 1).val; rw [e5]; omega

/-- What grid point t writes back is row block t of the support function. -/
theorem flushed_eq (c : Dev nD) (t : Fin cfg0.N) :
    (dat0 (F := Ideal) (V1 m ρ) c).flushed 2 t
      = ((cfg0.win 2).blk t).view.read (Elt Ideal) (suppArr m c) := by
  show (cfg0.win 2).cut (grid0.coords t) ((dat0 (F := Ideal) (V1 m ρ) c).after 2 t) = _
  rw [after0_2]
  unfold outsAt0
  rw [out_eq]
  refine block_of_entries c t _ (suppArr m c) fun p q r hr => ?_
  refine (pay_apply (iblk0 (F := Ideal) (V1 m ρ) c 0 t) (iblk0 (F := Ideal) (V1 m ρ) c 1 t) p q).trans ?_
  show _ = Cert.Spec.sup _ _ r q
  unfold Cert.Spec.sup
  exact Finset.sum_congr rfl fun f _ => congrArg₂ (· * ·) (xblk_apply m ρ c t p f r hr) (wblk_apply m ρ c t f q)

/-- Every entry of the support array is written: row r lies in the block of grid point r / 512, and every point
    writes its block back. -/
theorem covered (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0).val < 4096 := (i 0).isLt
  have h1 : (i 1).val < 128 := (i 1).isLt
  have hlt : (i 0).val / 512 < cfg0.N := Nat.lt_of_lt_of_eq (by omega : (i 0).val / 512 < 8) N_0.symm
  obtain ⟨-, -, -, -, e4, e5⟩ := idx_facts ⟨(i 0).val / 512, hlt⟩
  refine ⟨⟨(i 0).val / 512, hlt⟩, flush0_2 _, ?_⟩
  show i ∈ ((View.whole main_v2).slice (win0_2.rect ⟨(i 0).val / 512, hlt⟩)).set
  rw [View.set_slice_whole, Rect.mem_set_unit]
  intro a
  match a with
  | ⟨0, _⟩ =>
    show win0_2.index ⟨(i 0).val / 512, hlt⟩ (0 : Fin 2) * 512 ≤ (i 0).val
      ∧ (i 0).val < win0_2.index ⟨(i 0).val / 512, hlt⟩ (0 : Fin 2) * 512 + 512
    rw [e4]; dsimp only; omega
  | ⟨1, _⟩ =>
    show win0_2.index ⟨(i 0).val / 512, hlt⟩ (1 : Fin 2) * 128 ≤ (i 1).val
      ∧ (i 1).val < win0_2.index ⟨(i 0).val / 512, hlt⟩ (1 : Fin 2) * 128 + 128
    rw [e5]; omega

/-- After the first pipeline the support array holds, at node j and feature q, Σ_f x(j, f) · w(f, q). -/
theorem support_eq (c : Dev nD) (j : Fin 4096) (q : Fin 128) :
    (dat0 (F := Ideal) (V1 m ρ) c).arrAt 2 cfg0.N (ix2 j q)
      = Cert.Spec.sup (m ((c.tc : Thread nD τ).loc main_arg0)) (m ((c.tc : Thread nD τ).loc main_arg2)) j q :=
  congrFun ((dat0 (F := Ideal) (V1 m ρ) c).arrAt_eq_of_cover 2 (suppArr m c) (fun t _ => flushed_eq m ρ c t)
    (covered c)) (ix2 j q)

end Cert.ReferenceIdeal.RefValue

end
-- ==== Proof.RefOut.lean ====
/-
  What the reference's second pipeline leaves in the result array: out(r, q) = Σ_j adj(r, j) · support(j, q) + b(q).

  The pipeline runs over an 8 × 8 grid, point 8·i + k: row block i (512 rows) against neighbour block k (512 neighbours).
  At k = 0 the result block is reset to zero; every point adds the product of the adjacency block (i, k) with the
  support rows 512·k … 512·k + 511; at k = 7 the bias row is added down the rows and the block is written back. So
  after point 8·i + k the block holds, at (p, q), the sum over the neighbours below 512·(k + 1) of row 512·i + p
  (by induction on k), after k = 7 the whole row's sum plus the bias, and the eight write-backs tile the array.
-/
import proofs.«145967_g2000703821448203_pallasbulk_153_9_alg».proof.Proof.RefSupport
import Idealize.ShloMosaic.Lib.ValueLayout

set_option maxRecDepth 16384

noncomputable section

namespace Cert.ReferenceIdeal.RefOutValue

open Idealize.ShloMosaic Idealize.ShloMosaic.TcCoe Idealize.ShloMosaic.ValueIdx Idealize.SL.Sem
open Idealize.ShloMosaic.Pipeline (Dat Cfg Window)
open Cert.ReferenceIdeal Cert.ReferenceIdeal.Gen
open Cert.ReferenceIdeal.RefValue (support_eq)
open scoped BigOperators

/-! ## What each control case leaves in the result block, as a value of the blocks it reads -/

section Pieces
variable {F : FTy → Type} [FloatOps F]

theorem hz2 : (![0, 0] : Fin 2 → Nat) = fun _ => 0 := funext fun a => by fin_cases a <;> rfl

/-- The 512 support rows the body loads at neighbour block k out of the resident support array. -/
abbrev supRows (i : grid1.Coords) (x1 : Vec F S4096x128 .bf16) : Vec F S512x128 .bf16 :=
  View.ld x1 (Rect.unit (s := S4096x128) (k1_off1 i) S512x128.size (k1_off1_inb i))

/-- A middle neighbour block (0 < k < 7): the block holding xo is left at xo + adj-block · support-rows. -/
theorem piece_B (c : Dev nD) (i : grid1.Coords) (a2 : Memref sig .tc .vmem S512x512 .bf16) (h2 : a2.IsWhole)
    (a3 : Memref sig .tc .vmem S4096x128 .bf16) (h3 : a3.IsWhole) (a4 : Memref sig .tc .vmem S1x128 .f32) (h4 : a4.IsWhole)
    (a5 : Memref sig .tc .vmem S512x128 .f32) (h5 : a5.IsWhole) (hc0 : ¬cond1_0 i) (hc1 : ¬cond1_1 i)
    (x0 : Vec F S512x512 .bf16) (x1 : Vec F S4096x128 .bf16) (x2 : Vec F S1x128 .f32) (xo : Vec F S512x128 .f32) :
    out1_B_3 c i a2 h2 a3 h3 a4 h4 a5 h5 hc0 hc1 x0 x1 x2 xo = k1_pay2 xo x0 (supRows i x1) := by
  unfold out1_B_3
  rw [View.read_writes_eq_canon _ _ _ (cover1_B_3 c i a2 h2 a3 h3 a4 h4 a5 h5 hc0 hc1 x0 x1 x2 xo)]
  unfold kernelRun1_B
  dsimp only
  sl_unfold_words
  rw [View.canon_unit_zero hz2]
  simp only [View.readAt_eq_ld, h2.read_unread, h3.read_unread, h5.read_unread, View.ld_unit_zero (S := S512x128) hz2,
    View.ld_unit_zero (S := S512x512) hz2]
  rfl

/-- The first neighbour block (k = 0): the block is reset to the zero block, then updated. -/
theorem piece_A (c : Dev nD) (i : grid1.Coords) (a2 : Memref sig .tc .vmem S512x512 .bf16) (h2 : a2.IsWhole)
    (a3 : Memref sig .tc .vmem S4096x128 .bf16) (h3 : a3.IsWhole) (a4 : Memref sig .tc .vmem S1x128 .f32) (h4 : a4.IsWhole)
    (a5 : Memref sig .tc .vmem S512x128 .f32) (h5 : a5.IsWhole) (hc0 : cond1_0 i) (hc1 : ¬cond1_1 i)
    (x0 : Vec F S512x512 .bf16) (x1 : Vec F S4096x128 .bf16) (x2 : Vec F S1x128 .f32) :
    out1_A_3 c i a2 h2 a3 h3 a4 h4 a5 h5 hc0 hc1 x0 x1 x2 = k1_pay2 (k1_pay1 (F := F)) x0 (supRows i x1) := by
  unfold out1_A_3
  rw [View.read_writes_eq_canon _ _ _ (cover1_A_3 c i a2 h2 a3 h3 a4 h4 a5 h5 hc0 hc1 x0 x1 x2)]
  unfold kernelRun1_A
  dsimp only
  sl_unfold_words
  rw [View.canon_cons_unit_zero (S := S512x128) hz2, View.readCov_unit_zero (S := S512x128) _ hz2]
  simp only [View.readAt_eq_ld, h2.read_unread, h3.read_unread, View.ld_unit_zero (S := S512x128) hz2,
    View.ld_unit_zero (S := S512x512) hz2]
  rfl

/-- The last neighbour block (k = 7): the block is updated, then the bias row is added down its rows. -/
theorem piece_C (c : Dev nD) (i : grid1.Coords) (a2 : Memref sig .tc .vmem S512x512 .bf16) (h2 : a2.IsWhole)
    (a3 : Memref sig .tc .vmem S4096x128 .bf16) (h3 : a3.IsWhole) (a4 : Memref sig .tc .vmem S1x128 .f32) (h4 : a4.IsWhole)
    (a5 : Memref sig .tc .vmem S512x128 .f32) (h5 : a5.IsWhole) (hc0 : ¬cond1_0 i) (hc1 : cond1_1 i)
    (x0 : Vec F S512x512 .bf16) (x1 : Vec F S4096x128 .bf16) (x2 : Vec F S1x128 .f32) (xo : Vec F S512x128 .f32) :
    out1_C_3 c i a2 h2 a3 h3 a4 h4 a5 h5 hc0 hc1 x0 x1 x2 xo = k1_pay3 (k1_pay2 xo x0 (supRows i x1)) x2 := by
  unfold out1_C_3
  rw [View.read_writes_eq_canon _ _ _ (cover1_C_3 c i a2 h2 a3 h3 a4 h4 a5 h5 hc0 hc1 x0 x1 x2 xo)]
  unfold kernelRun1_C
  dsimp only
  sl_unfold_words
  rw [View.canon_cons_unit_zero (S := S512x128) hz2, View.readCov_unit_zero (S := S512x128) _ hz2]
  simp only [View.readAt_eq_ld, h2.read_unread, h3.read_unread, h4.read_unread, h5.read_unread,
    View.ld_unit_zero (S := S512x128) hz2, View.ld_unit_zero (S := S512x512) hz2, View.ld_unit_zero (S := S1x128) hz2]
  rfl
end Pieces

/-! ## The three stored values at an entry, over the extended reals -/

section Payloads

/-- The reset block is zero everywhere. -/
theorem reset_apply (p : Fin 512) (q : Fin 128) : (k1_pay1 (F := Ideal)) (ix2 p q) = 0 := by
  unfold k1_pay1
  exact Ideal.ofBits_zero_f32

/-- The update: the block's entry plus the 512 products of the adjacency block's row with the support rows' column. -/
theorem update_apply (v5 : Vec Ideal S512x128 .f32) (v7 : Vec Ideal S512x512 .bf16) (v10 : Vec Ideal S512x128 .bf16)
    (p : Fin 512) (q : Fin 128) :
    k1_pay2 v5 v7 v10 (ix2 p q) = v5 (ix2 p q) + ∑ j : Fin 512, v7 (ix2 p j) * v10 (ix2 j q) := by
  unfold k1_pay2
  simp only [shapeCast_self]
  exact congrArg (v5 (ix2 p q) + ·) (Cert.LibMatmulPlain.matmul_plain_zero_apply none v7 v10 p q)

/-- The bias step: the block's entry plus the bias row's entry in that column. -/
theorem bias_apply (v18 : Vec Ideal S512x128 .f32) (v20 : Vec Ideal S1x128 .f32) (p : Fin 512) (q : Fin 128) :
    k1_pay3 v18 v20 (ix2 p q) = v18 (ix2 p q) + v20 (ix2 0 q) := by
  unfold k1_pay3
  simp only [shapeCast_self]
  exact congrArg (v18 (ix2 p q) + ·) (Cert.LibMatmulPlain.rowBroadcast_apply v20 broadcasts_S1x128_S512x128 p q)

end Payloads

/-! ## The three arrays the second pipeline is entered with -/

section Arrays
variable (m : (ℓ : Loc nD τ sig) → Buf (Elt Ideal) ℓ) (ρ : Dev nD → PrngReg)

/-- The adjacency array the second pipeline reads: the launch adjacency, narrowed (over the extended reals: unchanged). -/
theorem adjArr_apply (c : Dev nD) (i : S4096x4096.Idx) :
    V2 m ρ c main_v1 i = m ((c.tc : Thread nD τ).loc main_arg1) i := by
  have e : V2 m ρ c main_v1
      = truncf (F := Idealize.ShloMosaic.Ideal) (s := S4096x4096) (φ := .f32) .bf16 (m ((c.tc : Thread nD τ).loc main_arg1)) bitsLt_bf16_f32 := by
    show W2 m ρ c (Proc.devRef .tc main_v1) = _
    rw [W2_of_ne m ρ c main_v1 (by decide)]
    show StableHlo.after hostOps0 (W0 m ρ c) (Proc.devRef .tc main_v1) = _
    after_results
  exact congrFun e i

/-- The bias row the second pipeline reads: the launch bias as one row. -/
theorem biasArr_apply (c : Dev nD) (q : Fin 128) :
    V2 m ρ c main_v0 (ix2 (0 : Fin 1) q) = m ((c.tc : Thread nD τ).loc main_arg3) (ix1 q) := by
  have e : V2 m ρ c main_v0
      = shapeCast S1x128 (m ((c.tc : Thread nD τ).loc main_arg3)) shapeCasts_S128_S1x128 := by
    show W2 m ρ c (Proc.devRef .tc main_v0) = _
    rw [W2_of_ne m ρ c main_v0 (by decide)]
    show StableHlo.after hostOps0 (W0 m ρ c) (Proc.devRef .tc main_v0) = _
    after_results
    rfl
  exact (congrFun e (ix2 (0 : Fin 1) q)).trans (shapeCast_a_1a_apply _ shapeCasts_S128_S1x128 0 q)

/-- The support array the second pipeline reads is what the first pipeline left: the feature transform. -/
theorem supArr_apply (c : Dev nD) (j : Fin 4096) (q : Fin 128) :
    V2 m ρ c main_v2 (ix2 j q)
      = Cert.Spec.sup (m ((c.tc : Thread nD τ).loc main_arg0)) (m ((c.tc : Thread nD τ).loc main_arg2)) j q :=
  (congrFun (W2_arr m ρ c 2) (ix2 j q)).trans (support_eq m ρ c j q)
end Arrays

/-! ## The blocks a grid point reads, entry by entry -/

section Blocks
variable (m : (ℓ : Loc nD τ sig) → Buf (Elt Ideal) ℓ) (ρ : Dev nD → PrngReg)

/-- Row (or neighbour) 512·i + p of the 4096, for a block number i of the 8 and a place p inside the block. -/
def at512 (i : Fin 8) (p : Fin 512) : Fin 4096 := ⟨512 * i.val + p.val, by have := i.isLt; have := p.isLt; omega⟩

/-- The index maps over the 8 × 8 grid, point t = 8·i + k: the adjacency block is block (i, k); the support array and the
    bias row are whole; the result block is row block i; the body's own load of support rows starts at row 512·k. -/
theorem grid_facts : ∀ t : Fin cfg1.N,
    win1_0.index t (0 : Fin 2) = t.val / 8 ∧ win1_0.index t (1 : Fin 2) = t.val % 8
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0
    ∧ k1_off1 (grid1.coords t) (0 : Fin 2) = 512 * (t.val % 8) ∧ k1_off1 (grid1.coords t) (1 : Fin 2) = 0 :=
  (by decide +kernel : ∀ t : Fin grid1.N, _)

/-- The three input blocks at point t: the adjacency block, the whole support array, the bias row. -/
abbrev adjBlk (c : Dev nD) (t : Fin cfg1.N) : Vec Ideal S512x512 .bf16 := iblk1 (V2 m ρ) c 0 t
abbrev supBlk (c : Dev nD) (t : Fin cfg1.N) : Vec Ideal S4096x128 .bf16 := iblk1 (V2 m ρ) c 1 t
abbrev biasBlk (c : Dev nD) (t : Fin cfg1.N) : Vec Ideal S1x128 .f32 := iblk1 (V2 m ρ) c 2 t

/-- The adjacency block at point 8·i + k, entry (p, j): adj(512·i + p, 512·k + j). -/
theorem adjBlk_apply (c : Dev nD) (t : Fin cfg1.N) (i k : Fin 8) (ht : t.val = 8 * i.val + k.val) (p j : Fin 512) :
    adjBlk m ρ c t (ix2 p j) = m ((c.tc : Thread nD τ).loc main_arg1) (ix2 (at512 i p) (at512 k j)) := by
  obtain ⟨e0, e1, -⟩ := grid_facts t
  have hi := i.isLt; have hk := k.isLt
  show V2 m ρ c main_v1 (((cfg1.win 0).blk t).view.emb (ix2 p j)) = _
  refine (adjArr_apply m ρ c _).trans (congrArg _ ?_)
  funext a; apply Fin.ext
  match a with
  | ⟨0, _⟩ => show win1_0.index t (0 : Fin 2) * 512 + 1 * p.val = 512 * i.val + p.val; omega
  | ⟨1, _⟩ => show win1_0.index t (1 : Fin 2) * 512 + 1 * j.val = 512 * k.val + j.val; omega

/-- The support rows the body loads at point 8·i + k, entry (j, q): support(512·k + j, q). -/
theorem supRows_apply (c : Dev nD) (t : Fin cfg1.N) (i k : Fin 8) (ht : t.val = 8 * i.val + k.val) (j : Fin 512) (q : Fin 128) :
    supRows (grid1.coords t) (supBlk m ρ c t) (ix2 j q)
      = Cert.Spec.sup (m ((c.tc : Thread nD τ).loc main_arg0)) (m ((c.tc : Thread nD τ).loc main_arg2)) (at512 k j) q := by
  obtain ⟨-, -, e2, e3, -, -, -, -, e8, e9⟩ := grid_facts t
  have hi := i.isLt; have hk := k.isLt
  show V2 m ρ c main_v2 (((cfg1.win 1).blk t).view.emb
    ((Rect.unit (s := S4096x128) (k1_off1 (grid1.coords t)) S512x128.size (k1_off1_inb (grid1.coords t))).idx (ix2 j q))) = _
  refine Eq.trans (congrArg _ ?_) (supArr_apply m ρ c (at512 k j) q)
  funext a; apply Fin.ext
  match a with
  | ⟨0, _⟩ => show win1_1.index t (0 : Fin 2) * 4096 + 1 * (k1_off1 (grid1.coords t) (0 : Fin 2) + 1 * j.val) = 512 * k.val + j.val; omega
  | ⟨1, _⟩ => show win1_1.index t (1 : Fin 2) * 128 + 1 * (k1_off1 (grid1.coords t) (1 : Fin 2) + 1 * q.val) = q.val; omega

/-- The bias row at any point, column q: b(q). -/
theorem biasBlk_apply (c : Dev nD) (t : Fin cfg1.N) (q : Fin 128) :
    biasBlk m ρ c t (ix2 (0 : Fin 1) q) = m ((c.tc : Thread nD τ).loc main_arg3) (ix1 q) := by
  obtain ⟨-, -, -, -, e4, e5, -⟩ := grid_facts t
  show V2 m ρ c main_v0 (((cfg1.win 2).blk t).view.emb (ix2 (0 : Fin 1) q)) = _
  refine Eq.trans (congrArg _ ?_) (biasArr_apply m ρ c q)
  funext a; apply Fin.ext
  match a with
  | ⟨0, _⟩ => show win1_2.index t (0 : Fin 2) * 1 + 1 * 0 = 0; omega
  | ⟨1, _⟩ => show win1_2.index t (1 : Fin 2) * 128 + 1 * q.val = q.val; omega
end Blocks

/-! ## The running sum over the neighbour blocks -/

section Invariant
variable (m : (ℓ : Loc nD τ sig) → Buf (Elt Ideal) ℓ) (ρ : Dev nD → PrngReg)

/-- The launch adjacency and the feature transform, the two tables the partial sums are over. -/
abbrev adjT (c : Dev nD) : FVec Ideal ⟨2, ![4096, 4096]⟩ .f32 := m ((c.tc : Thread nD τ).loc main_arg1)
abbrev supT (c : Dev nD) : Fin 4096 → Fin 128 → EReal :=
  Cert.Spec.sup (m ((c.tc : Thread nD τ).loc main_arg0)) (m ((c.tc : Thread nD τ).loc main_arg2))

/-- The 512 products the update adds at point 8·i + k are the neighbours 512·k … 512·k + 511 of the row's sum. -/
theorem update_sum (c : Dev nD) (t : Fin cfg1.N) (i : Fin 8) (k : ℕ) (hk : k < 8) (ht : t.val = 8 * i.val + k)
    (p : Fin 512) (q : Fin 128) :
    ∑ j : Fin 512, adjBlk m ρ c t (ix2 p j) * supRows (grid1.coords t) (supBlk m ρ c t) (ix2 j q)
      = ∑ j : Fin 512, Cert.Spec.term (adjT m c) (supT m c) (at512 i p) q (512 * k + j.val) := by
  refine Finset.sum_congr rfl fun j _ => ?_
  rw [adjBlk_apply m ρ c t i ⟨k, hk⟩ ht p j, supRows_apply m ρ c t i ⟨k, hk⟩ ht j q]
  exact (Cert.Spec.term_lt (adjT m c) (supT m c) (at512 i p) q (512 * k + j.val) (at512 ⟨k, hk⟩ j).isLt).symm

/-- After the point of row block i and neighbour block k < 7 the result block holds, at (p, q), the sum over the
    neighbours below 512·(k + 1) of row 512·i + p: by induction on k (the first point resets, the others add). -/
theorem acc_eq (c : Dev nD) (i : Fin 8) : ∀ (k : ℕ) (hk : k < 7) (hn : 8 * i.val + k < cfg1.N) (p : Fin 512) (q : Fin 128),
    outsAt1 (V2 m ρ) c (8 * i.val + k) hn (ix2 p q)
      = Cert.Spec.pre (adjT m c) (supT m c) (at512 i p) q (512 * k + 512)
  | 0, hk, hn, p, q => by
    have h0 : (⟨8 * i.val + 0, hn⟩ : Fin cfg1.N).val % 8 = 0 := by show (8 * i.val + 0) % 8 = 0; omega
    have h1 : ¬(⟨8 * i.val + 0, hn⟩ : Fin cfg1.N).val % 8 = 7 := by show ¬(8 * i.val + 0) % 8 = 7; omega
    refine (congrFun (outsAt1_A (V2 m ρ) c ⟨8 * i.val + 0, hn⟩ h0 h1) (ix2 p q)).trans ?_
    refine (congrFun (piece_A (F := Ideal) c (grid1.coords ⟨8 * i.val + 0, hn⟩)
      (ms1_0 ⟨8 * i.val + 0, hn⟩) (hs1_0 ⟨8 * i.val + 0, hn⟩) (ms1_1 ⟨8 * i.val + 0, hn⟩) (hs1_1 ⟨8 * i.val + 0, hn⟩)
      (ms1_2 ⟨8 * i.val + 0, hn⟩) (hs1_2 ⟨8 * i.val + 0, hn⟩) (ms1_3 ⟨8 * i.val + 0, hn⟩) (hs1_3 ⟨8 * i.val + 0, hn⟩)
      ((hcond1_0 ⟨8 * i.val + 0, hn⟩).mpr h0) (fun h => h1 ((hcond1_1 ⟨8 * i.val + 0, hn⟩).mp h))
      (adjBlk m ρ c ⟨8 * i.val + 0, hn⟩) (supBlk m ρ c ⟨8 * i.val + 0, hn⟩) (biasBlk m ρ c ⟨8 * i.val + 0, hn⟩)) (ix2 p q)).trans ?_
    refine (update_apply _ _ _ p q).trans ?_
    rw [reset_apply, zero_add, update_sum m ρ c ⟨8 * i.val + 0, hn⟩ i 0 (by omega) rfl p q, Cert.Spec.pre_block,
      Nat.mul_zero, Cert.Spec.pre_zero, zero_add]
  | k + 1, hk, hn, p, q => by
    have h0 : ¬(⟨8 * i.val + (k + 1), hn⟩ : Fin cfg1.N).val % 8 = 0 := by show ¬(8 * i.val + (k + 1)) % 8 = 0; omega
    have h1 : ¬(⟨8 * i.val + (k + 1), hn⟩ : Fin cfg1.N).val % 8 = 7 := by show ¬(8 * i.val + (k + 1)) % 8 = 7; omega
    refine (congrFun (outsAt1_B (V2 m ρ) c ⟨8 * i.val + (k + 1), hn⟩ h0 h1) (ix2 p q)).trans ?_
    refine (congrFun (piece_B (F := Ideal) c (grid1.coords ⟨8 * i.val + (k + 1), hn⟩)
      (ms1_0 ⟨8 * i.val + (k + 1), hn⟩) (hs1_0 ⟨8 * i.val + (k + 1), hn⟩) (ms1_1 ⟨8 * i.val + (k + 1), hn⟩) (hs1_1 ⟨8 * i.val + (k + 1), hn⟩)
      (ms1_2 ⟨8 * i.val + (k + 1), hn⟩) (hs1_2 ⟨8 * i.val + (k + 1), hn⟩) (ms1_3 ⟨8 * i.val + (k + 1), hn⟩) (hs1_3 ⟨8 * i.val + (k + 1), hn⟩)
      (fun h => h0 ((hcond1_0 ⟨8 * i.val + (k + 1), hn⟩).mp h)) (fun h => h1 ((hcond1_1 ⟨8 * i.val + (k + 1), hn⟩).mp h))
      (adjBlk m ρ c ⟨8 * i.val + (k + 1), hn⟩) (supBlk m ρ c ⟨8 * i.val + (k + 1), hn⟩) (biasBlk m ρ c ⟨8 * i.val + (k + 1), hn⟩)
      (outsAt1 (V2 m ρ) c (8 * i.val + k) (Nat.lt_of_succ_lt hn))) (ix2 p q)).trans ?_
    refine (update_apply _ _ _ p q).trans ?_
    rw [update_sum m ρ c ⟨8 * i.val + (k + 1), hn⟩ i (k + 1) (by omega) rfl p q, Cert.Spec.pre_block,
      show 512 * (k + 1) = 512 * k + 512 from by omega]
    exact congrArg (· + _) (acc_eq c i k (by omega) (Nat.lt_of_succ_lt hn) p q)

/-- After the last neighbour block the result block holds the whole row's sum plus the bias. -/
theorem last_eq (c : Dev nD) (i : Fin 8) (hn : 8 * i.val + 7 < cfg1.N) (p : Fin 512) (q : Fin 128) :
    outsAt1 (V2 m ρ) c (8 * i.val + 7) hn (ix2 p q)
      = Cert.Spec.pre (adjT m c) (supT m c) (at512 i p) q 4096 + m ((c.tc : Thread nD τ).loc main_arg3) (ix1 q) := by
  have h0 : ¬(⟨8 * i.val + 7, hn⟩ : Fin cfg1.N).val % 8 = 0 := by show ¬(8 * i.val + 7) % 8 = 0; omega
  have h1 : (⟨8 * i.val + 7, hn⟩ : Fin cfg1.N).val % 8 = 7 := by show (8 * i.val + 7) % 8 = 7; omega
  refine (congrFun (outsAt1_C (V2 m ρ) c ⟨8 * i.val + 7, hn⟩ h0 h1) (ix2 p q)).trans ?_
  refine (congrFun (piece_C (F := Ideal) c (grid1.coords ⟨8 * i.val + 7, hn⟩)
    (ms1_0 ⟨8 * i.val + 7, hn⟩) (hs1_0 ⟨8 * i.val + 7, hn⟩) (ms1_1 ⟨8 * i.val + 7, hn⟩) (hs1_1 ⟨8 * i.val + 7, hn⟩)
    (ms1_2 ⟨8 * i.val + 7, hn⟩) (hs1_2 ⟨8 * i.val + 7, hn⟩) (ms1_3 ⟨8 * i.val + 7, hn⟩) (hs1_3 ⟨8 * i.val + 7, hn⟩)
    (fun h => h0 ((hcond1_0 ⟨8 * i.val + 7, hn⟩).mp h)) ((hcond1_1 ⟨8 * i.val + 7, hn⟩).mpr h1)
    (adjBlk m ρ c ⟨8 * i.val + 7, hn⟩) (supBlk m ρ c ⟨8 * i.val + 7, hn⟩) (biasBlk m ρ c ⟨8 * i.val + 7, hn⟩)
    (outsAt1 (V2 m ρ) c (8 * i.val + 6) (Nat.lt_of_succ_lt hn))) (ix2 p q)).trans ?_
  refine (bias_apply _ _ p q).trans ?_
  rw [biasBlk_apply m ρ c ⟨8 * i.val + 7, hn⟩ q]
  refine congrArg (· + _) ?_
  refine (update_apply _ _ _ p q).trans ?_
  rw [update_sum m ρ c ⟨8 * i.val + 7, hn⟩ i 7 (by omega) rfl p q, show (4096 : ℕ) = 512 * 7 + 512 from rfl, Cert.Spec.pre_block]
  exact congrArg (· + _) (acc_eq m ρ c i 6 (by omega) (Nat.lt_of_succ_lt hn) p q)
end Invariant

/-! ## From the result blocks to the result array -/

section Final
variable (m : (ℓ : Loc nD τ sig) → Buf (Elt Ideal) ℓ) (ρ : Dev nD → PrngReg)

/-- The layer's output as one array of the four launch arrays. -/
abbrev outT (c : Dev nD) : FVec Ideal ⟨2, ![4096, 128]⟩ .f32 :=
  Cert.Spec.out (m ((c.tc : Thread nD τ).loc main_arg0)) (m ((c.tc : Thread nD τ).loc main_arg1))
    (m ((c.tc : Thread nD τ).loc main_arg2)) (m ((c.tc : Thread nD τ).loc main_arg3))

/-- The block's contents after a point depend on the point's number only. -/
theorem outsAt1_cast (c : Dev nD) {n n' : ℕ} (e : n = n') (h : n < cfg1.N) (h' : n' < cfg1.N) :
    outsAt1 (V2 m ρ) c n h = outsAt1 (V2 m ρ) c n' h' := by subst e; rfl

/-- What a write-back point (the last neighbour block of row block i) writes is rows 512·i … 512·i + 511 of the output. -/
theorem flushed_eq (c : Dev nD) (t : Fin cfg1.N) (hf : (cfg1.win 3).flush t = true) :
    (dat1 (V2 m ρ) c).flushed 3 t = ((cfg1.win 3).blk t).view.read (Elt Ideal) (outT m c) := by
  have h7 : t.val % 8 = 7 := (flush1_3 t).mp hf
  have hN : t.val < 64 := lt_of_lt_of_eq t.isLt (show cfg1.N = 64 from N_1)
  obtain ⟨-, -, -, -, -, -, e6, e7, -⟩ := grid_facts t
  have hi : t.val / 8 < 8 := by omega
  have e : t.val = 8 * (t.val / 8) + 7 := by omega
  have h' : 8 * (t.val / 8) + 7 < cfg1.N := lt_of_eq_of_lt e.symm t.isLt
  show (cfg1.win 3).cut (grid1.coords t) ((dat1 (V2 m ρ) c).after 3 t) = _
  rw [after1_3]
  funext y
  have hp : (y 0).val < 512 := (y 0).isLt
  have hq : (y 1).val < 128 := (y 1).isLt
  have hL : (cfg1.win 3).xinj (grid1.coords t) y = ix2 (⟨(y 0).val, hp⟩ : Fin 512) (⟨(y 1).val, hq⟩ : Fin 128) := by
    funext a; match a with | ⟨0, _⟩ => rfl | ⟨1, _⟩ => rfl
  have hR : ((cfg1.win 3).blk t).view.emb y
      = ix2 (at512 ⟨t.val / 8, hi⟩ ⟨(y 0).val, hp⟩) (⟨(y 1).val, hq⟩ : Fin 128) := by
    funext a; apply Fin.ext
    match a with
    | ⟨0, _⟩ => show win1_3.index t (0 : Fin 2) * 512 + 1 * (y 0).val = 512 * (t.val / 8) + (y 0).val; omega
    | ⟨1, _⟩ => show win1_3.index t (1 : Fin 2) * 128 + 1 * (y 1).val = (y 1).val; omega
  show outsAt1 (V2 m ρ) c t.val t.isLt ((cfg1.win 3).xinj (grid1.coords t) y) = outT m c (((cfg1.win 3).blk t).view.emb y)
  rw [hL, hR, outsAt1_cast m ρ c e t.isLt h']
  exact last_eq m ρ c ⟨t.val / 8, hi⟩ h' ⟨(y 0).val, hp⟩ ⟨(y 1).val, hq⟩

/-- Row r of the output is written by the last point of its row block, 8·(r / 512) + 7. -/
theorem covered (c : Dev nD) (y : S4096x128.Idx) :
    ∃ t : Fin cfg1.N, (cfg1.win 3).flush t = true ∧ y ∈ ((cfg1.win 3).blk t).view.set := by
  have h0 : (y 0).val < 4096 := (y 0).isLt
  have h1 : (y 1).val < 128 := (y 1).isLt
  have hN : cfg1.N = 64 := N_1
  have ht : 8 * ((y 0).val / 512) + 7 < cfg1.N := by rw [hN]; omega
  obtain ⟨-, -, -, -, -, -, e6, e7, -⟩ := grid_facts ⟨8 * ((y 0).val / 512) + 7, ht⟩
  have ev : (⟨8 * ((y 0).val / 512) + 7, ht⟩ : Fin cfg1.N).val = 8 * ((y 0).val / 512) + 7 := rfl
  refine ⟨⟨8 * ((y 0).val / 512) + 7, ht⟩, (flush1_3 _).mpr (by rw [ev]; omega), ?_⟩
  show y ∈ ((View.whole main_v3).slice (win1_3.rect ⟨8 * ((y 0).val / 512) + 7, ht⟩)).set
  rw [View.set_slice_whole, Rect.mem_set_unit]
  intro a
  match a with
  | ⟨0, _⟩ =>
    show win1_3.index ⟨8 * ((y 0).val / 512) + 7, ht⟩ (0 : Fin 2) * 512 ≤ (y 0).val
      ∧ (y 0).val < win1_3.index ⟨8 * ((y 0).val / 512) + 7, ht⟩ (0 : Fin 2) * 512 + 512
    rw [e6, ev]; omega
  | ⟨1, _⟩ =>
    show win1_3.index ⟨8 * ((y 0).val / 512) + 7, ht⟩ (1 : Fin 2) * 128 ≤ (y 1).val
      ∧ (y 1).val < win1_3.index ⟨8 * ((y 0).val / 512) + 7, ht⟩ (1 : Fin 2) * 128 + 128
    rw [e7]; omega

/-- After the second pipeline the result array holds the layer's output. -/
theorem out_eq (c : Dev nD) (r : Fin 4096) (q : Fin 128) :
    (dat1 (F := Ideal) (V2 m ρ) c).arrAt 3 cfg1.N (ix2 r q)
      = Cert.Spec.gcn (m ((c.tc : Thread nD τ).loc main_arg0)) (m ((c.tc : Thread nD τ).loc main_arg1))
          (m ((c.tc : Thread nD τ).loc main_arg2)) (m ((c.tc : Thread nD τ).loc main_arg3)) r q :=
  congrFun ((dat1 (V2 m ρ) c).arrAt_eq_of_cover 3 (outT m c) (flushed_eq m ρ c) (covered c)) (ix2 r q)
end Final

end Cert.ReferenceIdeal.RefOutValue

end
-- ==== Proof.RefFinal.lean ====
/-
  The reference program's run with its result named: the layer's output.
-/
import proofs.«145967_g2000703821448203_pallasbulk_153_9_alg».proof.Proof.RefRun
import proofs.«145967_g2000703821448203_pallasbulk_153_9_alg».proof.Proof.RefOut

set_option maxRecDepth 16384

noncomputable section

namespace Cert.ReferenceIdeal.RefFinal

open Idealize.ShloMosaic Idealize.ShloMosaic.TcCoe Idealize.ShloMosaic.ValueIdx Idealize.SL.Sem
open Cert.ReferenceIdeal Cert.ReferenceIdeal.Gen

/-- Every weakly fair execution of the reference program ends with the result array at the layer's output and the four
    argument arrays as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v3) = Cert.Spec.out (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  -- the run with the result array at what the second pipeline leaves; that array is the layer's output entry by entry
  refine (θ_run defs _ _).mono (fun r h c => ⟨(h c).1.trans ?_, (h c).2⟩) (Cert.ReferenceIdeal.RefRun.run (F := Ideal) m ρ)
  funext i
  -- an index of a 4096 × 128 array is the pair of its coordinates
  exact (congrArg ((dat1 (F := Ideal) (V2 m ρ) c).arrAt 3 cfg1.N) (eq_ix2 (n0 := 4096) (n1 := 128) i)).trans
    (Cert.ReferenceIdeal.RefOutValue.out_eq m ρ c (i 0) (i 1))

end Cert.ReferenceIdeal.RefFinal

end
-- ==== Proof.lean ====
/-
  A graph-convolution layer, out = adj · (x · w) + b, for 4096 nodes, 256 input and 128 output features.

  The kernel runs one pipeline over an 8 × 4 grid (row blocks of 512 rows by neighbour blocks of 1024 neighbours): during
  the first row block it fills a resident scratch with the support x · w, 1024 rows at a time, just before the rows are
  first used; at every point it adds the product of the adjacency block with the support rows of the neighbour block to
  the output block, which starts each row block at the bias row. The reference runs two pipelines: the support x · w in
  row blocks of 512, then over an 8 × 8 grid the sum of the products of 512 × 512 adjacency blocks with 512 support rows,
  started at zero, the bias row added after the last neighbour block. At the ideal values (every number an extended
  real, every change of format the identity, a matrix product into a zero accumulator the plain sum over the contracted
  index) both leave, at row r and feature q, the sum over all 4096 neighbours j of adj(r, j) · Σ_f x(j, f) · w(f, q),
  plus b(q): the kernel as b + (block sums in order), the reference as (0 + block sums in order) + b, which are equal by
  commutativity and associativity of addition alone, so the inputs' finiteness is never used.

  Frames: the kernel's two programs (word-level and idealized, one text at two instances) run under a tracking
  invariant for the support scratch (the row blocks filled so far hold their support rows; nothing is said of the
  rest, the scratch being read nowhere before it is filled); the reference's frame is its generated one.
-/
import proofs.«145967_g2000703821448203_pallasbulk_153_9_alg».proof.Defs
import proofs.«145967_g2000703821448203_pallasbulk_153_9_alg».proof.Proof.Gen.Kernel
import proofs.«145967_g2000703821448203_pallasbulk_153_9_alg».proof.Proof.Gen.KernelIdeal
import proofs.«145967_g2000703821448203_pallasbulk_153_9_alg».proof.Proof.Gen.ReferenceIdeal
import proofs.«145967_g2000703821448203_pallasbulk_153_9_alg».proof.Proof.Gen.ReferenceIdeal.Frame
import proofs.«145967_g2000703821448203_pallasbulk_153_9_alg».proof.Proof.Gen.Pre_finite_inputs
import proofs.«145967_g2000703821448203_pallasbulk_153_9_alg».proof.Proof.BFrame
import proofs.«145967_g2000703821448203_pallasbulk_153_9_alg».proof.Proof.KFrame
import proofs.«145967_g2000703821448203_pallasbulk_153_9_alg».proof.Proof.KValue
import proofs.«145967_g2000703821448203_pallasbulk_153_9_alg».proof.Proof.RefFinal
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel program runs and leaves its arguments as launched. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- So does the idealized reference program. -/
theorem frame_ri : Cert.frame_ReferenceIdeal := fun m ρ _ => Cert.ReferenceIdeal.Gen.frame m ρ

/-- From memories agreeing on the four arguments both idealized programs end with the layer's output in their result arrays. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.HandValue.run m ρ, ?_⟩
  refine (θ_run Cert.ReferenceIdeal.defs _ _).mono (fun _ h c => ⟨(h c).1.trans ?_, (h c).2⟩)
    (Cert.ReferenceIdeal.RefFinal.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
